-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x9281 : Shape := ⟨2, ![128, 9281]⟩
abbrev S8192x2 : Shape := ⟨2, ![8192, 2]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x9281 : S_.BroadcastsInDim S128x9281 (![] : Fin 0 → Fin S128x9281.rank)
  reducesTo_S128x9281_S_d0_1 : S128x9281.ReducesTo [0, 1] S_
  bcast_S_S8192x2 : S_.BroadcastsInDim S8192x2 (![] : Fin 0 → Fin S8192x2.rank)
  reducesTo_S8192x2_S_d0_1 : S8192x2.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v15 : IVec S_ 1) (main_c_5 : IVec S_ 32) : IVec S_ 1 :=
  let main_v16 : IVec S8192 32 := broadcastInDim S8192 ![] bcast_S_S8192 main_c_5
  let main_v17 : IVec S8192 1 := cmpi .sge main_arg3 main_v16
  let main_c_6 : IVec S_ 32 := constantI S_ 32 9281#32
  let main_v18 : IVec S8192 32 := broadcastInDim S8192 ![] bcast_S_S8192 main_c_6
  let main_v19 : IVec S8192 1 := cmpi .slt main_arg3 main_v18
  let main_v20 : IVec S8192 1 := andi main_v17 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v15 main_v21
  main_v22

def fn {F : FTy → Type} [FloatOps F] (main_arg0 : FVec F S8192x128 .f32) (main_arg1 : FVec F S128x9281 .f32) (main_arg2 : IVec S8192x2 32) (main_arg3 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x9281 .f32 := Host.absf main_arg1
  let main_cst_0 : FVec F S_ .f32 := constant S_ .f32 0x7F800000#32
  let main_v5 : FVec F S128x9281 .f32 := broadcastInDim S128x9281 ![] bcast_S_S128x9281 main_cst_0
  let main_v6 : IVec S128x9281 1 := cmpf .olt main_v4 main_v5
  let main_c_1 : IVec S_ 1 := constantI S_ 1 1#1
  let main_v7 : IVec S_ 1 := (fun x v => Host.reduce IntOp.andi x v reducesTo_S128x9281_S_d0_1 h_S_) main_v6 main_c_1
  let main_v8 : IVec S_ 1 := andi main_v3 main_v7
  let main_c_2 : IVec S_ 32 := constantI S_ 32 0#32
  let main_v9 : IVec S8192x2 32 := broadcastInDim S8192x2 ![] bcast_S_S8192x2 main_c_2
  let main_v10 : IVec S8192x2 1 := cmpi .sge main_arg2 main_v9
  let main_c_3 : IVec S_ 32 := constantI S_ 32 9281#32
  let main_v11 : IVec S8192x2 32 := broadcastInDim S8192x2 ![] bcast_S_S8192x2 main_c_3
  let main_v12 : IVec S8192x2 1 := cmpi .slt main_arg2 main_v11
  let main_v13 : IVec S8192x2 1 := andi main_v10 main_v12
  let main_c_4 : IVec S_ 1 := constantI S_ 1 1#1
  let main_v14 : IVec S_ 1 := (fun x v => Host.reduce IntOp.andi x v reducesTo_S8192x2_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S8192x128 : Shape := ⟨2, ![8192, 128]⟩
abbrev S128x9281 : Shape := ⟨2, ![128, 9281]⟩
abbrev S8192x2 : Shape := ⟨2, ![8192, 2]⟩
abbrev S8192 : Shape := ⟨1, ![8192]⟩
abbrev S8192x1 : Shape := ⟨2, ![8192, 1]⟩
abbrev S9281x128 : Shape := ⟨2, ![9281, 128]⟩
abbrev S24576 : Shape := ⟨1, ![24576]⟩
abbrev S_ : Shape := ⟨0, ![]⟩
abbrev S24576x1 : Shape := ⟨2, ![24576, 1]⟩
abbrev S1 : Shape := ⟨1, ![1]⟩
abbrev S1x1 : Shape := ⟨2, ![1, 1]⟩
abbrev S24576x128 : Shape := ⟨2, ![24576, 128]⟩
abbrev S4x2048x128 : Shape := ⟨3, ![4, 2048, 128]⟩
abbrev S4x1x2048x128 : Shape := ⟨4, ![4, 1, 2048, 128]⟩
abbrev S4x3x2048x128 : Shape := ⟨4, ![4, 3, 2048, 128]⟩
abbrev S1x128 : Shape := ⟨2, ![1, 128]⟩
abbrev S8192x8192 : Shape := ⟨2, ![8192, 8192]⟩
abbrev S1024x128 : Shape := ⟨2, ![1024, 128]⟩
abbrev S6144x128 : Shape := ⟨2, ![6144, 128]⟩
abbrev S1024x2048 : Shape := ⟨2, ![1024, 2048]⟩
abbrev S2048x128 : Shape := ⟨2, ![2048, 128]⟩
abbrev S1024x1 : Shape := ⟨2, ![1024, 1]⟩

abbrev nBuf : Space → Nat
  | .hbm => 46
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S128x9281, .f32⟩
  | .hbm, ⟨2, _⟩ => ⟨S8192x2, .i32⟩
  | .hbm, ⟨3, _⟩ => ⟨S8192, .i32⟩
  | .hbm, ⟨4, _⟩ => ⟨S8192x1, .i32⟩
  | .hbm, ⟨5, _⟩ => ⟨S8192, .i32⟩
  | .hbm, ⟨6, _⟩ => ⟨S8192x1, .i32⟩
  | .hbm, ⟨7, _⟩ => ⟨S8192, .i32⟩
  | .hbm, ⟨8, _⟩ => ⟨S9281x128, .f32⟩
  | .hbm, ⟨9, _⟩ => ⟨S24576, .i32⟩
  | .hbm, ⟨10, _⟩ => ⟨S_, .i32⟩
  | .hbm, ⟨11, _⟩ => ⟨S24576, .i32⟩
  | .hbm, ⟨12, _⟩ => ⟨S24576, .i1⟩
  | .hbm, ⟨13, _⟩ => ⟨S_, .i32⟩
  | .hbm, ⟨14, _⟩ => ⟨S24576, .i32⟩
  | .hbm, ⟨15, _⟩ => ⟨S24576, .i32⟩
  | .hbm, ⟨16, _⟩ => ⟨S24576, .i32⟩
  | .hbm, ⟨17, _⟩ => ⟨S24576x1, .i32⟩
  | .hbm, ⟨18, _⟩ => ⟨S1, .i32⟩
  | .hbm, ⟨19, _⟩ => ⟨S_, .i32⟩
  | .hbm, ⟨20, _⟩ => ⟨S24576x1, .i32⟩
  | .hbm, ⟨21, _⟩ => ⟨S24576x1, .i1⟩
  | .hbm, ⟨22, _⟩ => ⟨S1x1, .i32⟩
  | .hbm, ⟨23, _⟩ => ⟨S24576x1, .i32⟩
  | .hbm, ⟨24, _⟩ => ⟨S24576x1, .i1⟩
  | .hbm, ⟨25, _⟩ => ⟨S24576x1, .i1⟩
  | .hbm, ⟨26, _⟩ => ⟨S_, .i1⟩
  | .hbm, ⟨27, _⟩ => ⟨S24576, .i1⟩
  | .hbm, ⟨28, _⟩ => ⟨S24576x128, .f32⟩
  | .hbm, ⟨29, _⟩ => ⟨S24576x128, .i1⟩
  | .hbm, ⟨30, _⟩ => ⟨S_, .f32⟩
  | .hbm, ⟨31, _⟩ => ⟨S24576x128, .f32⟩
  | .hbm, ⟨32, _⟩ => ⟨S24576x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S4x2048x128, .f32⟩
  | .hbm, ⟨37, _⟩ => ⟨S4x2048x128, .f32⟩
  | .hbm, ⟨38, _⟩ => ⟨S4x2048x128, .f32⟩
  | .hbm, ⟨39, _⟩ => ⟨S4x1x2048x128, .f32⟩
  | .hbm, ⟨40, _⟩ => ⟨S4x1x2048x128, .f32⟩
  | .hbm, ⟨41, _⟩ => ⟨S4x1x2048x128, .f32⟩
  | .hbm, ⟨42, _⟩ => ⟨S4x3x2048x128, .f32⟩
  | .hbm, ⟨43, _⟩ => ⟨S24576x128, .f32⟩
  | .hbm, ⟨44, _⟩ => ⟨S1x128, .f32⟩
  | .hbm, ⟨45, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S6144x128, .f32⟩
  | .local _ .vmem, ⟨3, _⟩ => ⟨S6144x128, .f32⟩
  | .local _ .vmem, ⟨4, _⟩ => ⟨S1x128, .f32⟩
  | .local _ .vmem, ⟨5, _⟩ => ⟨S1024x2048, .f32⟩
  | .local _ .vmem, ⟨6, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6144x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  transposes_S128x9281_S9281x128_1_0 : S128x9281.Transposes [1, 0] S9281x128
  concatenates_S8192_S8192_S8192_S24576_d0 : Shape.Concatenates [S8192, S8192, S8192] S24576 0
  bcast_S_S24576 : S_.BroadcastsInDim S24576 (![] : Fin 0 → Fin S24576.rank)
  bcast_S24576_S24576x1_0 : S24576.BroadcastsInDim S24576x1 (![0] : Fin 1 → Fin S24576x1.rank)
  bcast_S_S24576x1 : S_.BroadcastsInDim S24576x1 (![] : Fin 0 → Fin S24576x1.rank)
  bcast_S1_S1x1_1 : S1.BroadcastsInDim S1x1 (![1] : Fin 1 → Fin S1x1.rank)
  bcast_S1x1_S24576x1_0_1 : S1x1.BroadcastsInDim S24576x1 (![0, 1] : Fin 2 → Fin S24576x1.rank)
  reducesTo_S24576x1_S24576_d1 : S24576x1.ReducesTo [1] S24576
  h_S_ : 0 < S_.numel
  bcast_S24576_S24576x128_0 : S24576.BroadcastsInDim S24576x128 (![0] : Fin 1 → Fin S24576x128.rank)
  bcast_S_S24576x128 : S_.BroadcastsInDim S24576x128 (![] : Fin 0 → Fin S24576x128.rank)
  slices_S24576x128_S8192x128_0_0 : S24576x128.Slices ![0, 0] S8192x128
  slices_S24576x128_S8192x128_8192_0 : S24576x128.Slices ![8192, 0] S8192x128
  slices_S24576x128_S8192x128_16384_0 : S24576x128.Slices ![16384, 0] S8192x128
  shapeCasts_S8192x128_S4x2048x128 : S8192x128.ShapeCasts S4x2048x128
  bcast_S4x2048x128_S4x1x2048x128_0_2_3 : S4x2048x128.BroadcastsInDim S4x1x2048x128 (![0, 2, 3] : Fin 3 → Fin S4x1x2048x128.rank)
  concatenates_S4x1x2048x128_S4x1x2048x128_S4x1x2048x128_S4x3x2048x128_d1 : Shape.Concatenates [S4x1x2048x128, S4x1x2048x128, S4x1x2048x128] S4x3x2048x128 1
  shapeCasts_S4x3x2048x128_S24576x128 : S4x3x2048x128.ShapeCasts S24576x128
  slices_S9281x128_S1x128_0_0 : S9281x128.Slices ![0, 0] S1x128
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6144x128_S2048x128_0_0 : ∀ a, (![0, 0] : Fin 2 → Nat) a + S2048x128.size a ≤ S6144x128.size a
  h_S2048x128 : 0 < S2048x128.numel
  shapeCasts_S2048x128_S2048x128 : S2048x128.ShapeCasts S2048x128
  inb_S6144x128_S2048x128_2048_0 : ∀ a, (![2048, 0] : Fin 2 → Nat) a + S2048x128.size a ≤ S6144x128.size a
  inb_S6144x128_S2048x128_4096_0 : ∀ a, (![4096, 0] : Fin 2 → Nat) a + S2048x128.size a ≤ S6144x128.size a
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  gather_S9281x128_S24576x1_S24576x128_1_0_n_n_0_1_1128_wf : GatherDims.WF S9281x128 S24576x1 S24576x128 [1] [0] [] [0] [] 1 ![1, 128]
  dot_S1024x128_S2048x128_S1024x2048_1_1_0_0_n_n_wf : DotDims.WF S1024x128 S2048x128 S1024x2048 [1] [1] [0] [0] [] []
  dot_S1024x128_S1x128_S1024x1_1_1_0_0_n_n_wf : DotDims.WF S1024x128 S1x128 S1024x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x128.size a ≤ S24576x128.size a
  hwx0_1 : ∀ i : grid0.Coords, EltTy.bits .f32 = 32 ∨ (Rect.block (s := S24576x128) S6144x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .f32 = 32 ∨ (Rect.block (s := S8192x8192) S1024x2048.size (cc0_transform_3 i) (hinb0_3 i)).WholeWords (EltTy.packing .f32)

variable [Facts₀]

def gather_S9281x128_S24576x1_S24576x128_1_0_n_n_0_1_1128 : GatherDims S9281x128 S24576x1 S24576x128 where
  offsetDims := [1]
  collapsedSliceDims := [0]
  operandBatchingDims := []
  startIndicesBatchingDims := []
  startIndexMap := [0]
  indexVectorDim := 1
  sliceSizes := ![1, 128]
  wf := gather_S9281x128_S24576x1_S24576x128_1_0_n_n_0_1_1128_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x128_S1x128_S1024x1_1_1_0_0_n_n : DotDims S1024x128 S1x128 S1024x1 where
  lhsContracting := [1]
  rhsContracting := [1]
  lhsNonContracting := [0]
  rhsNonContracting := [0]
  lhsBatch := []
  rhsBatch := []
  wf := dot_S1024x128_S1x128_S1024x1_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6144x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x9281 : Shape := ⟨2, ![128, 9281]⟩
abbrev S8192x2 : Shape := ⟨2, ![8192, 2]⟩
abbrev S8192 : Shape := ⟨1, ![8192]⟩
abbrev S8192x9281 : Shape := ⟨2, ![8192, 9281]⟩
abbrev S_ : Shape := ⟨0, ![]⟩
abbrev S8192x1 : Shape := ⟨2, ![8192, 1]⟩
abbrev S8192x2x1 : Shape := ⟨3, ![8192, 2, 1]⟩
abbrev S8192x8192x2 : Shape := ⟨3, ![8192, 8192, 2]⟩
abbrev S8192x8192 : Shape := ⟨2, ![8192, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x9281, .f32⟩
  | .hbm, ⟨2, _⟩ => ⟨S8192x2, .i32⟩
  | .hbm, ⟨3, _⟩ => ⟨S8192, .i32⟩
  | .hbm, ⟨4, _⟩ => ⟨S8192x9281, .f32⟩
  | .hbm, ⟨5, _⟩ => ⟨S_, .f32⟩
  | .hbm, ⟨6, _⟩ => ⟨S8192x9281, .f32⟩
  | .hbm, ⟨7, _⟩ => ⟨S8192x9281, .f32⟩
  | .hbm, ⟨8, _⟩ => ⟨S8192x1, .f32⟩
  | .hbm, ⟨9, _⟩ => ⟨S_, .i32⟩
  | .hbm, ⟨10, _⟩ => ⟨S8192x2, .i32⟩
  | .hbm, ⟨11, _⟩ => ⟨S8192x2, .i1⟩
  | .hbm, ⟨12, _⟩ => ⟨S_, .i32⟩
  | .hbm, ⟨13, _⟩ => ⟨S8192x2, .i32⟩
  | .hbm, ⟨14, _⟩ => ⟨S8192x2, .i32⟩
  | .hbm, ⟨15, _⟩ => ⟨S8192x2, .i32⟩
  | .hbm, ⟨16, _⟩ => ⟨S8192x2x1, .i32⟩
  | .hbm, ⟨17, _⟩ => ⟨S8192x8192x2, .f32⟩
  | .hbm, ⟨18, _⟩ => ⟨S_, .f32⟩
  | .hbm, ⟨19, _⟩ => ⟨S8192x8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S8192x9281 : S_.BroadcastsInDim S8192x9281 (![] : Fin 0 → Fin S8192x9281.rank)
  slices_S8192x9281_S8192x1_0_0 : S8192x9281.Slices ![0, 0] S8192x1
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  reducesTo_S8192x8192x2_S8192x8192_d2 : S8192x8192x2.ReducesTo [2] S8192x8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x9281_S8192x9281_1_0_0_1_n_n_wf : DotDims.WF S8192x128 S128x9281 S8192x9281 [1] [0] [0] [1] [] []
  gather_S8192x9281_S8192x2x1_S8192x8192x2_0_1_n_n_1_2_81921_wf : GatherDims.WF S8192x9281 S8192x2x1 S8192x8192x2 [0] [1] [] [1] [] 2 ![8192, 1]
  gather_S8192x9281_S8192x1_S8192x8192_0_1_n_n_1_1_81921_wf : GatherDims.WF S8192x9281 S8192x1 S8192x8192 [0] [1] [] [1] [] 1 ![8192, 1]

variable [Facts₀]

def dot_S8192x128_S128x9281_S8192x9281_1_0_0_1_n_n : DotDims S8192x128 S128x9281 S8192x9281 where
  lhsContracting := [1]
  rhsContracting := [0]
  lhsNonContracting := [0]
  rhsNonContracting := [1]
  lhsBatch := []
  rhsBatch := []
  wf := dot_S8192x128_S128x9281_S8192x9281_1_0_0_1_n_n_wf
def gather_S8192x9281_S8192x2x1_S8192x8192x2_0_1_n_n_1_2_81921 : GatherDims S8192x9281 S8192x2x1 S8192x8192x2 where
  offsetDims := [0]
  collapsedSliceDims := [1]
  operandBatchingDims := []
  startIndicesBatchingDims := []
  startIndexMap := [1]
  indexVectorDim := 2
  sliceSizes := ![8192, 1]
  wf := gather_S8192x9281_S8192x2x1_S8192x8192x2_0_1_n_n_1_2_81921_wf
def gather_S8192x9281_S8192x1_S8192x8192_0_1_n_n_1_1_81921 : GatherDims S8192x9281 S8192x1 S8192x8192 where
  offsetDims := [0]
  collapsedSliceDims := [1]
  operandBatchingDims := []
  startIndicesBatchingDims := []
  startIndexMap := [1]
  indexVectorDim := 1
  sliceSizes := ![8192, 1]
  wf := gather_S8192x9281_S8192x1_S8192x8192_0_1_n_n_1_1_81921_wf

class Facts : Prop extends Facts₀ where

variable [Facts]
-- ==== Proof.BitsEntry.lean ====
/-
  The program up to its one kernel launch. Forty-one host operations run first: the two path columns and the leaf
  ids are laid end to end, the weight table is transposed and its rows gathered at those ids, the three gathered
  groups are interleaved tile by tile, and the root's row is cut out. `V` names what every buffer holds when the
  launch is reached; no host operation writes an argument, so the launch finds the four arguments as they were.
-/
import proofs.«419006_j49400713838609_3_alg».proof.Proof.Gen.Kernel.Launch
import proofs.«419006_j49400713838609_3_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the launch is reached: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the launch writes argument 0: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 1: the launch finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 2: the launch finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 3: the launch finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.BitsFrame.lean ====
/-
  The kernel program runs to its end, faults nowhere and leaves its four arguments as they were.

  The launch walks a 4 × 8 grid. At a grid point the body reads one block of 1024 feature rows, one block of
  6144 gathered weight rows (three groups of 2048) and the root's row, and overwrites one 1024 × 2048 tile of the
  result with a pure function of what it read (`out0_3`). Nothing else is touched, so the launch theorem of the
  pipeline library applies with the plainest proof data: every input window's buffer holds its block before and
  after the body, the output window's buffer holds the tile after it.
-/
import proofs.«419006_j49400713838609_3_alg».proof.Proof.BitsEntry
import proofs.«419006_j49400713838609_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers at a grid point -/

/-- Input window 0's current staging buffer holds its block at every grid point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every grid point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every grid point, fetched there or not, for any proof
    data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the launch's run to the arguments unchanged -/

/-- For any proof data whose arrays are the contents the launch finds, a run to the launch theorem's post gives the
    four arguments back: the features are an input window's array, read and never written; the other three are staged
    by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What the body reads and writes -/

/-- The whole feature block. -/
abbrev rFeat : Rect S1024x128 := Rect.unit (s := S1024x128) ![0, 0] S1024x128.size inb_S1024x128_S1024x128_0_0
/-- The root's row. -/
abbrev rRoot : Rect S1x128 := Rect.unit (s := S1x128) ![0, 0] S1x128.size inb_S1x128_S1x128_0_0
/-- The three groups of 2048 gathered rows: first path node, second path node, leaf node. -/
abbrev rW0 : Rect S6144x128 := Rect.unit (s := S6144x128) ![0, 0] S2048x128.size inb_S6144x128_S2048x128_0_0
abbrev rW1 : Rect S6144x128 := Rect.unit (s := S6144x128) ![2048, 0] S2048x128.size inb_S6144x128_S2048x128_2048_0
abbrev rW2 : Rect S6144x128 := Rect.unit (s := S6144x128) ![4096, 0] S2048x128.size inb_S6144x128_S2048x128_4096_0
/-- The whole result tile. -/
abbrev rOut : Rect S1024x2048 := Rect.unit (s := S1024x2048) ![0, 0] S1024x2048.size inb_S1024x2048_S1024x2048_0_0

/-- The result tile the body leaves, from the three input blocks: its one store. -/
def out0_3 (x0 : Vec F S1024x128 .f32) (x1 : Vec F S6144x128 .f32) (x2 : Vec F S1x128 .f32) : Vec F S1024x2048 .f32 :=
  View.canon [⟨rOut, k0_pay1 (View.ld x0 rFeat) (View.ld x2 rRoot) (View.ld x1 rW0) (View.ld x1 rW1) (View.ld x1 rW2)⟩]

/-- The one store covers the tile. -/
theorem cover0_3 (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

/-! ## The body's triple -/

set_option maxHeartbeats 1000000 in
/-- On whole staging buffers, the inputs' at contents `x0 x1 x2` and the output's at anything, the body runs to the
    continuation with the inputs' as they were and the output's at `out0_3 x0 x1 x2`. -/
theorem sound_kernel (c : Dev nD) (E : Set ℕ) (i : grid0.Coords) (arg2 : Memref sig .tc .vmem S1024x128 .f32) (harg2 : arg2.IsWhole) (arg3 : Memref sig .tc .vmem S6144x128 .f32) (harg3 : arg3.IsWhole) (arg4 : Memref sig .tc .vmem S1x128 .f32) (harg4 : arg4.IsWhole) (arg5 : Memref sig .tc .vmem S1024x2048 .f32) (harg5 : arg5.IsWhole)
    (x0 : Vec F S1024x128 .f32) (x1 : Vec F S6144x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- On core `c`: the arrays as the launch finds them; after the body at point `t` each input window's buffer at its
    block and the output window's at `out0_3` of the three blocks; the invariant the rest of the core's scoped
    memory, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has the result array at what the library computes from the proof data and every other unscoped buffer as the
    launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates without a fault and its four arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.IdealEntry.lean ====
/-
  The program up to its one kernel launch. Forty-one host operations run first: the two path columns and the leaf
  ids are laid end to end, the weight table is transposed and its rows gathered at those ids, the three gathered
  groups are interleaved tile by tile, and the root's row is cut out. `V` names what every buffer holds when the
  launch is reached; no host operation writes an argument, so the launch finds the four arguments as they were.
-/
import proofs.«419006_j49400713838609_3_alg».proof.Proof.Gen.KernelIdeal.Launch
import proofs.«419006_j49400713838609_3_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the launch is reached: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the launch writes argument 0: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 1: the launch finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 2: the launch finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 3: the launch finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.IdealFrame.lean ====
/-
  The kernel program runs to its end, faults nowhere and leaves its four arguments as they were.

  The launch walks a 4 × 8 grid. At a grid point the body reads one block of 1024 feature rows, one block of
  6144 gathered weight rows (three groups of 2048) and the root's row, and overwrites one 1024 × 2048 tile of the
  result with a pure function of what it read (`out0_3`). Nothing else is touched, so the launch theorem of the
  pipeline library applies with the plainest proof data: every input window's buffer holds its block before and
  after the body, the output window's buffer holds the tile after it.
-/
import proofs.«419006_j49400713838609_3_alg».proof.Proof.IdealEntry
import proofs.«419006_j49400713838609_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers at a grid point -/

/-- Input window 0's current staging buffer holds its block at every grid point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every grid point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every grid point, fetched there or not, for any proof
    data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the launch's run to the arguments unchanged -/

/-- For any proof data whose arrays are the contents the launch finds, a run to the launch theorem's post gives the
    four arguments back: the features are an input window's array, read and never written; the other three are staged
    by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What the body reads and writes -/

/-- The whole feature block. -/
abbrev rFeat : Rect S1024x128 := Rect.unit (s := S1024x128) ![0, 0] S1024x128.size inb_S1024x128_S1024x128_0_0
/-- The root's row. -/
abbrev rRoot : Rect S1x128 := Rect.unit (s := S1x128) ![0, 0] S1x128.size inb_S1x128_S1x128_0_0
/-- The three groups of 2048 gathered rows: first path node, second path node, leaf node. -/
abbrev rW0 : Rect S6144x128 := Rect.unit (s := S6144x128) ![0, 0] S2048x128.size inb_S6144x128_S2048x128_0_0
abbrev rW1 : Rect S6144x128 := Rect.unit (s := S6144x128) ![2048, 0] S2048x128.size inb_S6144x128_S2048x128_2048_0
abbrev rW2 : Rect S6144x128 := Rect.unit (s := S6144x128) ![4096, 0] S2048x128.size inb_S6144x128_S2048x128_4096_0
/-- The whole result tile. -/
abbrev rOut : Rect S1024x2048 := Rect.unit (s := S1024x2048) ![0, 0] S1024x2048.size inb_S1024x2048_S1024x2048_0_0

/-- The result tile the body leaves, from the three input blocks: its one store. -/
def out0_3 (x0 : Vec F S1024x128 .f32) (x1 : Vec F S6144x128 .f32) (x2 : Vec F S1x128 .f32) : Vec F S1024x2048 .f32 :=
  View.canon [⟨rOut, k0_pay1 (View.ld x0 rFeat) (View.ld x2 rRoot) (View.ld x1 rW0) (View.ld x1 rW1) (View.ld x1 rW2)⟩]

/-- The one store covers the tile. -/
theorem cover0_3 (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

/-! ## The body's triple -/

set_option maxHeartbeats 1000000 in
/-- On whole staging buffers, the inputs' at contents `x0 x1 x2` and the output's at anything, the body runs to the
    continuation with the inputs' as they were and the output's at `out0_3 x0 x1 x2`. -/
theorem sound_kernel (c : Dev nD) (E : Set ℕ) (i : grid0.Coords) (arg2 : Memref sig .tc .vmem S1024x128 .f32) (harg2 : arg2.IsWhole) (arg3 : Memref sig .tc .vmem S6144x128 .f32) (harg3 : arg3.IsWhole) (arg4 : Memref sig .tc .vmem S1x128 .f32) (harg4 : arg4.IsWhole) (arg5 : Memref sig .tc .vmem S1024x2048 .f32) (harg5 : arg5.IsWhole)
    (x0 : Vec F S1024x128 .f32) (x1 : Vec F S6144x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- On core `c`: the arrays as the launch finds them; after the body at point `t` each input window's buffer at its
    block and the output window's at `out0_3` of the three blocks; the invariant the rest of the core's scoped
    memory, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has the result array at what the library computes from the proof data and every other unscoped buffer as the
    launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates without a fault and its four arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.TileEntry.lean ====
/- One entry of the stored tile at the exact-real instance: the entry at row y and column q is
   (row y of A · the single row of w) + max (row y of A · row q of B₁) (row y of A · row q of B₂) + (row y of A · row q of B₃),
   every product a sum over the 128 contracted coordinates. -/
import proofs.«419006_j49400713838609_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileEntry

open Idealize.ShloMosaic Idealize.ShloMosaic.ValueIdx Cert.KernelIdeal Cert.KernelIdeal.Gen
open scoped BigOperators

/-- The word 0x3F800000 denotes the real number one. -/
theorem ofBits_one : Ideal.ofBits .f32 0x3F800000#32 = 1 := by
  simp [Ideal.ofBits, Ideal.ieee, -EReal.coe_mul]; norm_num

/-! ## The [1024,128] × [2048,128] product contracting the minor axes -/

/-- Left operand's row coordinate at an output index: the output's row. -/
theorem lhsA_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- Left operand's column coordinate: the contraction coordinate. -/
theorem lhsA_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- Right operand's row coordinate at an output index: the output's column. -/
theorem rhsA_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- Right operand's column coordinate: the contraction coordinate. -/
theorem rhsA_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The product into a zero accumulator at (y, q): the dot product of row y of the left operand and row q of the right. -/
theorem matmulA_apply (a : FVec Ideal S1024x128 .f32) (b : FVec Ideal S2048x128 .f32) (y : Fin 1024) (q : Fin 2048) :
    matmul (F := Ideal) dot_S1024x128_S2048x128_S1024x2048_1_1_0_0_n_n (some .fp32) a b (constant (F := Ideal) S1024x2048 .f32 0x00000000#32) (ix2 y q)
      = ∑ k : Fin 128, a (ix2 y k) * b (ix2 q k) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 y q) ((contrEquiv1 dot_S1024x128_S2048x128_S1024x2048_1_1_0_0_n_n 128 rfl rfl).symm k) = ix2 y k := funext fun c => Fin.ext (by
    match c with
    | ⟨0, _⟩ => exact lhsA_0 _ _
    | ⟨1, _⟩ => exact (lhsA_1 _ _).trans hk)
  have er : dot_S1024x128_S2048x128_S1024x2048_1_1_0_0_n_n.rhsIdx (ix2 y q) ((contrEquiv1 dot_S1024x128_S2048x128_S1024x2048_1_1_0_0_n_n 128 rfl rfl).symm k) = ix2 q k := funext fun c => Fin.ext (by
    match c with
    | ⟨0, _⟩ => exact rhsA_0 _ _
    | ⟨1, _⟩ => exact (rhsA_1 _ _).trans hk)
  rw [el, er]

/-! ## The [1024,128] × [1,128] product contracting the minor axes -/

/-- Left operand's row coordinate at an output index: the output's row. -/
theorem lhsB_0 (i : S1024x1.Idx) (q : dot_S1024x128_S1x128_S1024x1_1_1_0_0_n_n.contr.Idx) :
    (dot_S1024x128_S1x128_S1024x1_1_1_0_0_n_n.lhsIdx i q 0).val = (i 0).val := by
  unfold DotDims.lhsIdx
  rw [dif_neg (show ¬(0 : Fin S1024x128.rank) ∈ dot_S1024x128_S1x128_S1024x1_1_1_0_0_n_n.lhsBatch by decide), dif_pos (show (0 : Fin S1024x128.rank) ∈ dot_S1024x128_S1x128_S1024x1_1_1_0_0_n_n.lhsNonContracting by decide)]
  rfl
/-- Left operand's column coordinate: the contraction coordinate. -/
theorem lhsB_1 (i : S1024x1.Idx) (q : dot_S1024x128_S1x128_S1024x1_1_1_0_0_n_n.contr.Idx) :
    (dot_S1024x128_S1x128_S1024x1_1_1_0_0_n_n.lhsIdx i q 1).val = (q ⟨0, by decide⟩).val :=
  dot_S1024x128_S1x128_S1024x1_1_1_0_0_n_n.lhsIdx_val_of_single rfl i q
/-- Right operand's row coordinate at an output index: the output's column. -/
theorem rhsB_0 (i : S1024x1.Idx) (q : dot_S1024x128_S1x128_S1024x1_1_1_0_0_n_n.contr.Idx) :
    (dot_S1024x128_S1x128_S1024x1_1_1_0_0_n_n.rhsIdx i q 0).val = (i 1).val := by
  unfold DotDims.rhsIdx
  rw [dif_neg (show ¬(0 : Fin S1x128.rank) ∈ dot_S1024x128_S1x128_S1024x1_1_1_0_0_n_n.rhsBatch by decide), dif_pos (show (0 : Fin S1x128.rank) ∈ dot_S1024x128_S1x128_S1024x1_1_1_0_0_n_n.rhsNonContracting by decide)]
  rfl
/-- Right operand's column coordinate: the contraction coordinate. -/
theorem rhsB_1 (i : S1024x1.Idx) (q : dot_S1024x128_S1x128_S1024x1_1_1_0_0_n_n.contr.Idx) :
    (dot_S1024x128_S1x128_S1024x1_1_1_0_0_n_n.rhsIdx i q 1).val = (q ⟨0, by decide⟩).val :=
  dot_S1024x128_S1x128_S1024x1_1_1_0_0_n_n.rhsIdx_val_of_single rfl i q

/-- The product into a zero accumulator at (y, 0): the dot product of row y of the left operand and the right operand's one row. -/
theorem matmulB_apply (a : FVec Ideal S1024x128 .f32) (b : FVec Ideal S1x128 .f32) (y : Fin 1024) (z : Fin 1) :
    matmul (F := Ideal) dot_S1024x128_S1x128_S1024x1_1_1_0_0_n_n (some .fp32) a b (constant (F := Ideal) S1024x1 .f32 0x00000000#32) (ix2 y z)
      = ∑ k : Fin 128, a (ix2 y k) * b (ix2 z k) := by
  simp only [matmul]
  rw [Ideal.matmul_constant_zero_apply, ← Equiv.sum_comp (contrEquiv1 dot_S1024x128_S1x128_S1024x1_1_1_0_0_n_n 128 rfl rfl).symm]
  refine Finset.sum_congr rfl fun k _ => ?_
  have hk := contrEquiv1_symm_val dot_S1024x128_S1x128_S1024x1_1_1_0_0_n_n 128 rfl rfl k
  have el : dot_S1024x128_S1x128_S1024x1_1_1_0_0_n_n.lhsIdx (ix2 y z) ((contrEquiv1 dot_S1024x128_S1x128_S1024x1_1_1_0_0_n_n 128 rfl rfl).symm k) = ix2 y k := funext fun c => Fin.ext (by
    match c with
    | ⟨0, _⟩ => exact lhsB_0 _ _
    | ⟨1, _⟩ => exact (lhsB_1 _ _).trans hk)
  have er : dot_S1024x128_S1x128_S1024x1_1_1_0_0_n_n.rhsIdx (ix2 y z) ((contrEquiv1 dot_S1024x128_S1x128_S1024x1_1_1_0_0_n_n 128 rfl rfl).symm k) = ix2 z k := funext fun c => Fin.ext (by
    match c with
    | ⟨0, _⟩ => exact rhsB_0 _ _
    | ⟨1, _⟩ => exact (rhsB_1 _ _).trans hk)
  rw [el, er]

/-! ## The column broadcast along the columns -/

/-- A [1024,1] column broadcast to [1024,2048], read at (y, q), is the column's entry at row y. -/
theorem bcastCol_apply {α : Type} (x : S1024x1.Idx → α) (y : Fin 1024) (q : Fin 2048) :
    broadcastTo S1024x2048 x broadcasts_S1024x1_S1024x2048 (ix2 y q) = x (ix2 y (0 : Fin 1)) :=
  broadcastTo_apply x broadcasts_S1024x1_S1024x2048 (ix2 y q) (ix2 y (0 : Fin 1)) (fun c => match c with
    | ⟨0, _⟩ => by show y.val = if (1024 : Nat) = 1 then 0 else y.val; rw [if_neg (by decide)]
    | ⟨1, _⟩ => by show (0 : Nat) = if (1 : Nat) = 1 then 0 else q.val; rw [if_pos rfl])

/-! ## The stored tile's entry -/

theorem pay_apply (v0 : Vec Ideal S1024x128 .f32) (v1 : Vec Ideal S1x128 .f32) (v3 v6 v10 : Vec Ideal S2048x128 .f32)
    (y : Fin 1024) (q : Fin 2048) :
    k0_pay1 (F := Ideal) v0 v1 v3 v6 v10 (ix2 y q)
      = ((∑ k : Fin 128, v0 (ix2 y k) * v1 (ix2 (0 : Fin 1) k))
          + max (∑ k : Fin 128, v0 (ix2 y k) * v3 (ix2 q k)) (∑ k : Fin 128, v0 (ix2 y k) * v6 (ix2 q k)))
        + ∑ k : Fin 128, v0 (ix2 y k) * v10 (ix2 q k) := by
  unfold k0_pay1
  simp only [shapeCast_self]
  rw [mulf_apply, addf_apply, addf_apply, maximumf_apply, broadcast_apply, bcastCol_apply,
    matmulA_apply, matmulA_apply, matmulA_apply, matmulB_apply]
  show _ * Ideal.ofBits .f32 0x3F800000#32 = _
  rw [ofBits_one, mul_one]

end Cert.KernelIdeal.TileEntry

end
-- ==== Proof.Spec.lean ====
/-
  The function both programs compute, entry by entry, over the extended reals.

  A batch of 8192 feature rows (128 features each) is scored against a table of 9281 nodes (one weight column
  per node): the logit of row `r` against node `j` is the inner product `∑ₖ f[r,k] · W[k,j]`. Each of the 8192
  leaves `c` names two inner nodes of its path and its own leaf node. The result at `(r, c)` is

      logit r root  +  max (logit r (first node of c)) (logit r (second node of c))  +  logit r (leaf node of c),

  the root being node 0. A node id is read the way an array index is read: a negative id counts from the end
  (`wrap`), and the id is then clamped into the table (`node`); for an id already inside `[0, 9281)` both are
  the identity.
-/
import Idealize.ShloMosaic.PureOps.Ideal
import Idealize.ShloMosaic.Lib.ValueIdx

noncomputable section

open scoped BigOperators

namespace Cert.Spec

open Idealize.ShloMosaic Idealize.ShloMosaic.ValueIdx

/-- A negative id counts from the end of the table of 9281 nodes. -/
def wrap (w : BitVec 32) : BitVec 32 :=
  Scalar.select (IntOp.cmpi .slt w 0#32) (IntOp.addi w 9281#32) w

/-- The node an id names: its signed reading after `wrap`, clamped into `[0, 9280]`. -/
def node (w : BitVec 32) : Fin 9281 := ⟨min (wrap w).toInt.toNat 9280, by omega⟩

/-- An id already inside the table is not moved by `wrap`. -/
theorem wrap_of_lt {w : BitVec 32} (h : w.toNat < 9281) : wrap w = w := by
  unfold wrap Scalar.select IntOp.cmpi
  have hs : w.slt 0#32 = false := by
    rw [BitVec.slt_eq_decide]
    have : w.toInt = w.toNat := by rw [BitVec.toInt_eq_toNat_cond]; simp; omega
    simp [this]
  simp [hs]

/-- An id inside the table names itself. -/
theorem node_val_of_lt {w : BitVec 32} (h : w.toNat < 9281) : (node w).val = w.toNat := by
  have : w.toInt = w.toNat := by rw [BitVec.toInt_eq_toNat_cond]; simp; omega
  show min (wrap w).toInt.toNat 9280 = w.toNat
  rw [wrap_of_lt h, this, Int.toNat_natCast]
  omega

/-- The logit of feature row `r` against node `j`. -/
def logit (f : FVec Ideal ⟨2, ![8192, 128]⟩ .f32) (W : FVec Ideal ⟨2, ![128, 9281]⟩ .f32) (r : Fin 8192) (j : Fin 9281) : EReal :=
  ∑ k : Fin 128, f (ix2 r k) * W (ix2 k j)

/-- The result at row `r` and leaf `c`. -/
def leafLogit (f : FVec Ideal ⟨2, ![8192, 128]⟩ .f32) (W : FVec Ideal ⟨2, ![128, 9281]⟩ .f32)
    (P : IVec ⟨2, ![8192, 2]⟩ 32) (Lf : IVec ⟨1, ![8192]⟩ 32) (r c : Fin 8192) : EReal :=
  (logit f W r 0 + max (logit f W r (node (P (ix2 c 0)))) (logit f W r (node (P (ix2 c 1)))))
    + logit f W r (node (Lf (ix1 c)))

/-- The whole result array. -/
def G (f : FVec Ideal ⟨2, ![8192, 128]⟩ .f32) (W : FVec Ideal ⟨2, ![128, 9281]⟩ .f32)
    (P : IVec ⟨2, ![8192, 2]⟩ 32) (Lf : IVec ⟨1, ![8192]⟩ 32) : FVec Ideal ⟨2, ![8192, 8192]⟩ .f32 :=
  fun i => leafLogit f W P Lf (i 0) (i 1)

theorem G_apply (f : FVec Ideal ⟨2, ![8192, 128]⟩ .f32) (W : FVec Ideal ⟨2, ![128, 9281]⟩ .f32)
    (P : IVec ⟨2, ![8192, 2]⟩ 32) (Lf : IVec ⟨1, ![8192]⟩ 32) (r c : Fin 8192) :
    G f W P Lf (ix2 r c) = leafLogit f W P Lf r c := rfl

end Cert.Spec

end
-- ==== Proof.KernelValue.lean ====
/-
  What the kernel program leaves in its result array, at the exact-real instance.

  Grid point `t` owns the 1024 × 2048 tile of the result whose rows are the feature block's and whose columns are
  the 2048 leaves of one weight block. Entry `(y, q)` of the tile is the root's inner product with feature row `y`,
  plus the larger of the inner products with the two path nodes' weight rows of leaf `q`, plus the inner product with
  the leaf's own weight row (`TileEntry.pay_apply`). Once the gathered weight rows are known to be the weight table's
  columns at the nodes the leaves name (`RowsRead`, the host side's contribution), the tile is the tile of
  `Spec.G`, and the tiles cover the array.
-/
import proofs.«419006_j49400713838609_3_alg».proof.Proof.IdealFrame
import proofs.«419006_j49400713838609_3_alg».proof.Proof.TileEntry
import proofs.«419006_j49400713838609_3_alg».proof.Proof.Spec
import Idealize.ShloMosaic.Lib.Pipeline.Value

noncomputable section

namespace Cert.KernelIdeal.KValue

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The four arguments on core `c`: features, weight table, the leaves' two path nodes, the leaves' own nodes. -/
abbrev feat (c : Dev nD) : S8192x128.Idx → EReal := m ((c : Thread nD τ).loc main_arg0)
abbrev wTab (c : Dev nD) : S128x9281.Idx → EReal := m ((c : Thread nD τ).loc main_arg1)
abbrev pathIds (c : Dev nD) : S8192x2.Idx → BitVec 32 := m ((c : Thread nD τ).loc main_arg2)
abbrev leafIds (c : Dev nD) : S8192.Idx → BitVec 32 := m ((c : Thread nD τ).loc main_arg3)

/-- The specification at the arguments. -/
def result (c : Dev nD) : S8192x8192.Idx → EReal := Cert.Spec.G (feat m c) (wTab m c) (pathIds m c) (leafIds m c)

/-- What the host operations must have prepared for the launch: row `n·6144 + s·2048 + q` of the interleaved weight
    operand is the weight column of the node that leaf `n·2048 + q` names in position `s` (first path node, second
    path node, the leaf itself), and the one-row operand is the root's weight column. -/
def RowsRead (c : Dev nD) : Prop :=
  (∀ (n : Fin 4) (q : Fin 2048) (k : Fin 128),
      (V m c main_v17 : S24576x128.Idx → EReal) (ix2 (⟨n.val * 6144 + q.val, by omega⟩ : Fin 24576) k)
        = wTab m c (ix2 k (Cert.Spec.node (pathIds m c (ix2 (⟨n.val * 2048 + q.val, by omega⟩ : Fin 8192) (0 : Fin 2))))))
  ∧ (∀ (n : Fin 4) (q : Fin 2048) (k : Fin 128),
      (V m c main_v17 : S24576x128.Idx → EReal) (ix2 (⟨n.val * 6144 + 2048 + q.val, by omega⟩ : Fin 24576) k)
        = wTab m c (ix2 k (Cert.Spec.node (pathIds m c (ix2 (⟨n.val * 2048 + q.val, by omega⟩ : Fin 8192) (1 : Fin 2))))))
  ∧ (∀ (n : Fin 4) (q : Fin 2048) (k : Fin 128),
      (V m c main_v17 : S24576x128.Idx → EReal) (ix2 (⟨n.val * 6144 + 4096 + q.val, by omega⟩ : Fin 24576) k)
        = wTab m c (ix2 k (Cert.Spec.node (leafIds m c (ix1 (⟨n.val * 2048 + q.val, by omega⟩ : Fin 8192))))))
  ∧ (∀ k : Fin 128, (V m c main_v18 : S1x128.Idx → EReal) (ix2 (0 : Fin 1) k) = wTab m c (ix2 k (0 : Fin 9281)))

theorem hz : (![0, 0] : Fin 2 → Nat) = fun _ => 0 := funext fun a => by fin_cases a <;> rfl

/-! ## The body's three reads of the weight block -/

theorem ld_rW0 (x1 : Vec Ideal S6144x128 .f32) (q : Fin 2048) (k : Fin 128) :
    View.ld x1 rW0 (ix2 q k) = x1 (ix2 (⟨q.val, by omega⟩ : Fin 6144) k) := by
  show x1 (rW0.emb (ix2 q k)) = _
  congr 1; funext a; apply Fin.ext
  match a with
  | ⟨0, _⟩ => show 0 + 1 * q.val = q.val; omega
  | ⟨1, _⟩ => show 0 + 1 * k.val = k.val; omega

theorem ld_rW1 (x1 : Vec Ideal S6144x128 .f32) (q : Fin 2048) (k : Fin 128) :
    View.ld x1 rW1 (ix2 q k) = x1 (ix2 (⟨2048 + q.val, by omega⟩ : Fin 6144) k) := by
  show x1 (rW1.emb (ix2 q k)) = _
  congr 1; funext a; apply Fin.ext
  match a with
  | ⟨0, _⟩ => show 2048 + 1 * q.val = 2048 + q.val; omega
  | ⟨1, _⟩ => show 0 + 1 * k.val = k.val; omega

theorem ld_rW2 (x1 : Vec Ideal S6144x128 .f32) (q : Fin 2048) (k : Fin 128) :
    View.ld x1 rW2 (ix2 q k) = x1 (ix2 (⟨4096 + q.val, by omega⟩ : Fin 6144) k) := by
  show x1 (rW2.emb (ix2 q k)) = _
  congr 1; funext a; apply Fin.ext
  match a with
  | ⟨0, _⟩ => show 4096 + 1 * q.val = 4096 + q.val; omega
  | ⟨1, _⟩ => show 0 + 1 * k.val = k.val; omega

/-! ## One tile, over blocks of the literal shapes -/

/-- If the feature block is rows `r0 …` of `f`, the weight block's three groups are the weight columns of the nodes
    that leaves `c0 …` name, and the one-row block is the root's column, then the tile the body stores is the tile
    of `Spec.G` at rows `r0 …` and columns `c0 …`. -/
theorem tile_entry
    (f : FVec Ideal S8192x128 .f32) (W : FVec Ideal S128x9281 .f32) (P : IVec S8192x2 32) (Lf : IVec S8192 32)
    (x0 : Vec Ideal S1024x128 .f32) (x1 : Vec Ideal S6144x128 .f32) (x2 : Vec Ideal S1x128 .f32)
    (r0 c0 : Nat) (hr : r0 + 1024 ≤ 8192) (hc : c0 + 2048 ≤ 8192)
    (h0 : ∀ (y : Fin 1024) (k : Fin 128), x0 (ix2 y k) = f (ix2 (⟨r0 + y.val, by omega⟩ : Fin 8192) k))
    (h1a : ∀ (q : Fin 2048) (k : Fin 128), x1 (ix2 (⟨q.val, by omega⟩ : Fin 6144) k)
        = W (ix2 k (Cert.Spec.node (P (ix2 (⟨c0 + q.val, by omega⟩ : Fin 8192) (0 : Fin 2))))))
    (h1b : ∀ (q : Fin 2048) (k : Fin 128), x1 (ix2 (⟨2048 + q.val, by omega⟩ : Fin 6144) k)
        = W (ix2 k (Cert.Spec.node (P (ix2 (⟨c0 + q.val, by omega⟩ : Fin 8192) (1 : Fin 2))))))
    (h1c : ∀ (q : Fin 2048) (k : Fin 128), x1 (ix2 (⟨4096 + q.val, by omega⟩ : Fin 6144) k)
        = W (ix2 k (Cert.Spec.node (Lf (ix1 (⟨c0 + q.val, by omega⟩ : Fin 8192))))))
    (h2 : ∀ k : Fin 128, x2 (ix2 (0 : Fin 1) k) = W (ix2 k (0 : Fin 9281)))
    (y : Fin 1024) (q : Fin 2048) :
    out0_3 x0 x1 x2 (ix2 y q)
      = Cert.Spec.G f W P Lf (ix2 (⟨r0 + y.val, by omega⟩ : Fin 8192) (⟨c0 + q.val, by omega⟩ : Fin 8192)) := by
  unfold out0_3
  rw [View.canon_unit_zero hz, Cert.KernelIdeal.TileEntry.pay_apply, Cert.Spec.G_apply]
  unfold Cert.Spec.leafLogit Cert.Spec.logit
  have e0 : ∀ k : Fin 128, View.ld x0 rFeat (ix2 y k) = f (ix2 (⟨r0 + y.val, by omega⟩ : Fin 8192) k) := fun k => by
    rw [View.ld_unit_zero hz]; exact h0 y k
  have eR : ∀ k : Fin 128, View.ld x2 rRoot (ix2 (0 : Fin 1) k) = W (ix2 k (0 : Fin 9281)) := fun k => by
    rw [View.ld_unit_zero hz]; exact h2 k
  have ea := fun k : Fin 128 => (ld_rW0 x1 q k).trans (h1a q k)
  have eb := fun k : Fin 128 => (ld_rW1 x1 q k).trans (h1b q k)
  have ec := fun k : Fin 128 => (ld_rW2 x1 q k).trans (h1c q k)
  exact congrArg₂ (· + ·) (congrArg₂ (· + ·) (Finset.sum_congr rfl fun k _ => by rw [e0 k, eR k])
      (congrArg₂ max (Finset.sum_congr rfl fun k _ => by rw [e0 k, ea k]) (Finset.sum_congr rfl fun k _ => by rw [e0 k, eb k])))
    (Finset.sum_congr rfl fun k _ => by rw [e0 k, ec k])

/-! ## A window's block at an index -/

theorem idx_facts : ∀ t : Fin cfg0.N, win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) ≤ 3 :=
  (by decide +kernel : ∀ t : Fin grid0.N, _)

/-- Every tile position is some grid point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- The feature block at `t` is rows `(the tile's block row) · 1024 …` of the features. -/
theorem iblk0_apply (c : Dev nD) (t : Fin cfg0.N) (y : Fin 1024) (k : Fin 128) (h : win0_3.index t (0 : Fin 2) * 1024 + 1024 ≤ 8192) :
    (iblk m c 0 t : S1024x128.Idx → EReal) (ix2 y k) = feat m c (ix2 (⟨win0_3.index t (0 : Fin 2) * 1024 + y.val, by omega⟩ : Fin 8192) k) := by
  obtain ⟨e0, e1, -⟩ := idx_facts t
  refine Eq.trans ?_ (congrFun (V_main_arg0 m c) _)
  show V m c main_arg0 (((cfg0.win 0).blk t).view.emb (ix2 y k)) = V m c main_arg0 _
  congr 1; funext a; apply Fin.ext
  match a with
  | ⟨0, _⟩ => show win0_0.index t (0 : Fin 2) * 1024 + 1 * y.val = win0_3.index t (0 : Fin 2) * 1024 + y.val; omega
  | ⟨1, _⟩ => show win0_0.index t (1 : Fin 2) * 128 + 1 * k.val = k.val; omega

/-- The weight block at `t` is rows `(the tile's block column) · 6144 …` of the interleaved operand. -/
theorem iblk1_apply (c : Dev nD) (t : Fin cfg0.N) (row : Nat) (hrow : row < 6144) (k : Fin 128) (h : win0_3.index t (1 : Fin 2) * 6144 + 6144 ≤ 24576)
    (tgt : Nat) (htgt : tgt < 24576) (he : win0_3.index t (1 : Fin 2) * 6144 + row = tgt) :
    (iblk m c 1 t : S6144x128.Idx → EReal) (ix2 (⟨row, hrow⟩ : Fin 6144) k)
      = (V m c main_v17 : S24576x128.Idx → EReal) (ix2 (⟨tgt, htgt⟩ : Fin 24576) k) := by
  obtain ⟨-, -, e0, e1, -⟩ := idx_facts t
  show V m c main_v17 (((cfg0.win 1).blk t).view.emb (ix2 (⟨row, hrow⟩ : Fin 6144) k)) = V m c main_v17 _
  congr 1; funext a; apply Fin.ext
  match a with
  | ⟨0, _⟩ => show win0_1.index t (0 : Fin 2) * 6144 + 1 * row = tgt; omega
  | ⟨1, _⟩ => show win0_1.index t (1 : Fin 2) * 128 + 1 * k.val = k.val; omega

/-- The one-row block at every point is the one-row operand. -/
theorem iblk2_apply (c : Dev nD) (t : Fin cfg0.N) (k : Fin 128) :
    (iblk m c 2 t : S1x128.Idx → EReal) (ix2 (0 : Fin 1) k) = (V m c main_v18 : S1x128.Idx → EReal) (ix2 (0 : Fin 1) k) := by
  obtain ⟨-, -, -, -, e0, e1, -⟩ := idx_facts t
  show V m c main_v18 (((cfg0.win 2).blk t).view.emb (ix2 (0 : Fin 1) k)) = V m c main_v18 _
  congr 1; funext a; apply Fin.ext
  match a with
  | ⟨0, _⟩ => show win0_2.index t (0 : Fin 2) * 1 + 1 * 0 = 0; omega
  | ⟨1, _⟩ => show win0_2.index t (1 : Fin 2) * 128 + 1 * k.val = k.val; omega

/-! ## What each grid point writes back, and the array after the run -/

/-- Point `t` writes back block `t` of the specification. -/
theorem flushed_eq (c : Dev nD) (hrows : RowsRead m c) (t : Fin cfg0.N) :
    (dats m 0 c).flushed 3 t = ((cfg0.win 3).blk t).view.read (Elt Ideal) (result m c) := by
  obtain ⟨-, -, -, -, -, -, b0, b1⟩ := idx_facts t
  obtain ⟨hw0, hw1, hw2, hroot⟩ := hrows
  show (cfg0.win 3).cut (grid0.coords t) ((dats m 0 c).after 3 t) = _
  rw [after0_3]
  funext j
  have key := tile_entry (feat m c) (wTab m c) (pathIds m c) (leafIds m c) (iblk m c 0 t) (iblk m c 1 t) (iblk m c 2 t)
    (win0_3.index t (0 : Fin 2) * 1024) (win0_3.index t (1 : Fin 2) * 2048) (by omega) (by omega)
    (fun y k => iblk0_apply m c t y k (by omega))
    (fun q k => (iblk1_apply m c t q.val (by omega) k (by omega) (win0_3.index t (1 : Fin 2) * 6144 + q.val) (by omega) rfl).trans (hw0 ⟨win0_3.index t (1 : Fin 2), by omega⟩ q k))
    (fun q k => (iblk1_apply m c t (2048 + q.val) (by omega) k (by omega) (win0_3.index t (1 : Fin 2) * 6144 + 2048 + q.val) (by omega) (by omega)).trans (hw1 ⟨win0_3.index t (1 : Fin 2), by omega⟩ q k))
    (fun q k => (iblk1_apply m c t (4096 + q.val) (by omega) k (by omega) (win0_3.index t (1 : Fin 2) * 6144 + 4096 + q.val) (by omega) (by omega)).trans (hw2 ⟨win0_3.index t (1 : Fin 2), by omega⟩ q k))
    (fun k => (iblk2_apply m c t k).trans (hroot k))
    (j 0) (j 1)
  refine ((congrArg (out0_3 (iblk m c 0 t) (iblk m c 1 t) (iblk m c 2 t)) (eq_ix2 (n0 := 1024) (n1 := 2048) j)).trans key).trans ?_
  refine congrArg (result m c) (funext fun a => Fin.ext ?_)
  match a with
  | ⟨0, _⟩ => show win0_3.index t (0 : Fin 2) * 1024 + (j 0).val = win0_3.index t (0 : Fin 2) * 1024 + 1 * (j 0).val; omega
  | ⟨1, _⟩ => show win0_3.index t (1 : Fin 2) * 2048 + (j 1).val = win0_3.index t (1 : Fin 2) * 2048 + 1 * (j 1).val; omega

/-- An index of the result array is in point `t`'s tile iff each coordinate is in the tile's range on its axis. -/
theorem mem_blk (t : Fin cfg0.N) (i : S8192x8192.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v19).slice (win0_3.rect t)).set ↔ _
  rw [View.set_slice_whole, Rect.mem_set_unit]
  exact Iff.rfl

/-- The tiles cover the result array: entry `(r, c)` lies in the tile at block row `r / 1024`, block column `c / 2048`. -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- After the run the result array is the specification at the arguments. -/
theorem final (c : Dev nD) (hrows : RowsRead m c) : (dats m 0 c).arrAt 3 cfg0.N = result m c :=
  (dats m 0 c).arrAt_eq_of_cover 3 (result m c) (fun t _ => flushed_eq m c hrows t) cover

/-- The program's run, read: the result array at the specification, the four arguments unchanged. -/
theorem run (hrows : ∀ c, RowsRead m c) : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c (hrows c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KValue

end
-- ==== Proof.HostValue.lean ====
/-
  The two arrays the host operations prepare for the kernel launch, read entry by entry over the extended reals.

  Before the launch the program lays the two path columns and the leaf ids end to end (24576 ids), transposes the
  weight table to one row per node, and takes the table's row at every id: a negative id counts from the end, the row
  gather clamps the id into the table, and a row whose id fails the test "0 ≤ id ≤ 9280" is replaced by a fill value.
  The three groups of 8192 gathered rows are then interleaved in tiles of 2048 rows: row n * 6144 + g * 2048 + q of
  the result is row n * 2048 + q of group g. The root's row is the first row of the transposed table.

  This module names those operations' composed term, shows that the two buffers hold it when the launch is reached,
  and reads it at an index: when every id lies inside the table the test passes everywhere, so the fill value is never
  selected, and each row of the interleaved array is the weight column of the node the specification names.
-/
import proofs.«419006_j49400713838609_3_alg».proof.Proof.IdealEntry
import proofs.«419006_j49400713838609_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Reduce

noncomputable section

namespace Cert.KernelIdeal.HostValue

open Cert.KernelIdeal Cert.KernelIdeal.Gen Cert.KernelIdeal.Hand Idealize.ShloMosaic Idealize.ShloMosaic.TcCoe Idealize.ShloMosaic.ValueIdx Idealize.SL.Sem

/-! ## Running a stretch of host operations -/

section Run
variable {τ : Topo} {sig : RefSig} {Val : EltTy → Type}

/-- An operation of three operands writes, at its own result, its function of the three operands' contents, each read
    at its own reference. -/
theorem nary3_result {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Contents moved to a typed reference's buffer type and back are the contents. -/
theorem ofBuf_toBuf {T : BufTy} (x : StableHlo.TRef sig T) (v : T.Contents Val) : x.ofBuf (x.toBuf v) = v := by
  obtain ⟨r, h, h1, h2⟩ := x
  subst h
  rfl

/-- Two stretches of operations run one after the other. -/
theorem after_append (l₁ l₂ : List (HloOp τ sig Val)) (X : Valuation τ sig Val) :
    StableHlo.after (l₁ ++ l₂) X = StableHlo.after l₂ (StableHlo.after l₁ X) := by
  induction l₁ generalizing X with
  | nil => rfl
  | cons op l ih => simp only [List.cons_append, StableHlo.after_cons, ih]

end Run

/-- Every host operation's result rewritten to its function's value (an operation of three operands included), in one
    pass; a typed reference's two transports cancel. -/
macro "after_results3" : tactic =>
  `(tactic| (simp (disch := decide) only [StableHlo.after_cons, StableHlo.after_nil,
      StableHlo.nullary_result', StableHlo.unary_result', StableHlo.binary_result', StableHlo.ternary_result', StableHlo.reshape_result',
      nary3_result,
      StableHlo.nullary_result_ne', StableHlo.unary_result_ne', StableHlo.binary_result_ne', StableHlo.ternary_result_ne',
      StableHlo.reshape_result_ne', StableHlo.nary_result_ne', ofBuf_toBuf]))

/-! ## The operations, named

The host operations compose to one term over the four arguments. Its pieces are named here, in the order the
program runs them; the two theorems of the next section say the two buffers hold exactly these terms. -/

/-- The three id lists laid end to end: the first path column, the second path column, the leaf ids. -/
def ids (P : S8192x2.Idx → BitVec 32) (Lf : S8192.Idx → BitVec 32) : S24576.Idx → BitVec 32 :=
  concatenate S24576 0
    [⟨S8192, shapeCast S8192 (extractStridedSlice S8192x1 ![0, 0] P slices_S8192x2_S8192x1_0_0) shapeCasts_S8192x1_S8192⟩,
     ⟨S8192, shapeCast S8192 (extractStridedSlice S8192x1 ![0, 1] P slices_S8192x2_S8192x1_0_1) shapeCasts_S8192x1_S8192⟩,
     ⟨S8192, Lf⟩] concatenates_S8192_S8192_S8192_S24576_d0

/-- The weight table with one row per node. -/
def Wt (W : S128x9281.Idx → EReal) : S9281x128.Idx → EReal :=
  transpose S9281x128 [1, 0] W transposes_S128x9281_S9281x128_1_0

/-- Negative ids counted from the end of the table. -/
def wrapped (x : S24576.Idx → BitVec 32) : S24576.Idx → BitVec 32 :=
  select (cmpi .slt x (broadcastInDim S24576 ![] bcast_S_S24576 (constantI S_ 32 0#32)))
    (addi x (broadcastInDim S24576 ![] bcast_S_S24576 (constantI S_ 32 9281#32))) x

/-- The wrapped ids as a column of start indices. -/
def startIdx (x : S24576.Idx → BitVec 32) : S24576x1.Idx → BitVec 32 :=
  broadcastInDim S24576x1 ![0] bcast_S24576_S24576x1_0 (wrapped x)

/-- Per start index: is it inside the table, `0 ≤ id ≤ 9280`? -/
def inRange (x : S24576.Idx → BitVec 32) : S24576x1.Idx → BitVec 1 :=
  andi (cmpi .sge (startIdx x) (broadcastInDim S24576x1 ![] bcast_S_S24576x1 (constantI S_ 32 0#32)))
    (cmpi .sle (startIdx x)
      (broadcastInDim S24576x1 ![0, 1] bcast_S1x1_S24576x1_0_1
        (broadcastInDim S1x1 ![1] bcast_S1_S1x1_1 (constantI S1 32 9280#32))))

/-- Per row: the range test reduced over the unit axis. -/
def inTable (x : S24576.Idx → BitVec 32) : S24576.Idx → BitVec 1 :=
  Host.reduce IntOp.andi (inRange x) (constantI S_ 1 1#1) reducesTo_S24576x1_S24576_d1 h_S_

/-- The rows of the table at the ids: the gathered row where the id is inside the table, the fill value elsewhere. -/
def taken (T : S9281x128.Idx → EReal) (x : S24576.Idx → BitVec 32) : S24576x128.Idx → EReal :=
  select (broadcastInDim S24576x128 ![0] bcast_S24576_S24576x128_0 (inTable x))
    (Host.gather gather_S9281x128_S24576x1_S24576x128_1_0_n_n_0_1_1128 T (startIdx x))
    (broadcastInDim S24576x128 ![] bcast_S_S24576x128 (constant (F := Ideal) S_ .f32 0x7FC00000#32))

/-- One third of the gathered rows as four tiles of 2048 rows, with a unit axis for the group. -/
def group (o : Nat) (h : S24576x128.Slices ![o, 0] S8192x128) (G : S24576x128.Idx → EReal) : S4x1x2048x128.Idx → EReal :=
  broadcastInDim S4x1x2048x128 ![0, 2, 3] bcast_S4x2048x128_S4x1x2048x128_0_2_3
    (shapeCast S4x2048x128 (extractStridedSlice S8192x128 ![o, 0] G h) shapeCasts_S8192x128_S4x2048x128)

/-- The three groups interleaved tile by tile. -/
def interleave (G : S24576x128.Idx → EReal) : S24576x128.Idx → EReal :=
  shapeCast S24576x128
    (concatenate S4x3x2048x128 1
      [⟨S4x1x2048x128, group 0 slices_S24576x128_S8192x128_0_0 G⟩,
       ⟨S4x1x2048x128, group 8192 slices_S24576x128_S8192x128_8192_0 G⟩,
       ⟨S4x1x2048x128, group 16384 slices_S24576x128_S8192x128_16384_0 G⟩]
      concatenates_S4x1x2048x128_S4x1x2048x128_S4x1x2048x128_S4x3x2048x128_d1)
    shapeCasts_S4x3x2048x128_S24576x128

/-! ## The interleaving read at an index -/

/-- Group offset `o`, tile `n`, row `q`: the gathered row `o + (n * 2048 + q)`. -/
theorem group_apply (o : Nat) (h : S24576x128.Slices ![o, 0] S8192x128) (G : S24576x128.Idx → EReal)
    (n : Fin 4) (q : Fin 2048) (k : Fin 128) (r : Fin 24576) (hr : r.val = o + (n.val * 2048 + q.val)) :
    group o h G (ix4 n (0 : Fin 1) q k) = G (ix2 r k) := by
  unfold group
  refine (broadcastInDim_apply _ _ _ _ (ix3 n q k) (fun a => ?_)).trans ?_
  · match a with
    | ⟨0, _⟩ => rfl
    | ⟨1, _⟩ => rfl
    | ⟨2, _⟩ => rfl
  refine (shapeCast_apply _ _ _ (ix2 (⟨n.val * 2048 + q.val, by omega⟩ : Fin 8192) k) ?_).trans ?_
  · rw [Shape.rowMajor_val_two, Shape.rowMajor_val_three]
    show (n.val * 2048 + q.val) * 128 + k.val = (n.val * 2048 + q.val) * 128 + k.val
    rfl
  exact slice2_axis0_apply o G h _ k r hr

/-- The interleaved rows at tile `n`, group 0, row `q`. -/
theorem interleave_apply0 (G : S24576x128.Idx → EReal) (n : Fin 4) (q : Fin 2048) (k : Fin 128) :
    interleave G (ix2 (⟨n.val * 6144 + q.val, by omega⟩ : Fin 24576) k)
      = G (ix2 (⟨n.val * 2048 + q.val, by omega⟩ : Fin 24576) k) := by
  unfold interleave
  refine (shapeCast_apply _ _ _ (ix4 n (0 : Fin 3) q k) ?_).trans ?_
  · rw [Shape.rowMajor_val_two, Shape.rowMajor_val_four]
    show ((n.val * 3 + 0) * 2048 + q.val) * 128 + k.val = (n.val * 6144 + q.val) * 128 + k.val
    omega
  refine (concatenate_apply_piece (t := S4x3x2048x128) (1 : Fin 4) _ _ _ 0 ?hk S4x1x2048x128 (group 0 slices_S24576x128_S8192x128_0_0 G) ?hx rfl 0 ?hp
    (ix4 n (0 : Fin 1) q k) ?hi ?ha).trans ?_
  case hk => exact Nat.zero_lt_succ _
  case hx => rfl
  case hp => rfl
  case hi =>
    intro b hb
    match b with
    | ⟨0, _⟩ => rfl
    | ⟨1, _⟩ => exact absurd rfl hb
    | ⟨2, _⟩ => rfl
    | ⟨3, _⟩ => rfl
  case ha => rfl
  exact group_apply 0 _ G n q k _ (by show n.val * 2048 + q.val = 0 + (n.val * 2048 + q.val); omega)

/-- The interleaved rows at tile `n`, group 1, row `q`. -/
theorem interleave_apply1 (G : S24576x128.Idx → EReal) (n : Fin 4) (q : Fin 2048) (k : Fin 128) :
    interleave G (ix2 (⟨n.val * 6144 + 2048 + q.val, by omega⟩ : Fin 24576) k)
      = G (ix2 (⟨8192 + (n.val * 2048 + q.val), by omega⟩ : Fin 24576) k) := by
  unfold interleave
  refine (shapeCast_apply _ _ _ (ix4 n (1 : Fin 3) q k) ?_).trans ?_
  · rw [Shape.rowMajor_val_two, Shape.rowMajor_val_four]
    show ((n.val * 3 + 1) * 2048 + q.val) * 128 + k.val = (n.val * 6144 + 2048 + q.val) * 128 + k.val
    omega
  refine (concatenate_apply_piece (t := S4x3x2048x128) (1 : Fin 4) _ _ _ 1 ?hk S4x1x2048x128 (group 8192 slices_S24576x128_S8192x128_8192_0 G) ?hx rfl 1 ?hp
    (ix4 n (0 : Fin 1) q k) ?hi ?ha).trans ?_
  case hk => exact Nat.succ_lt_succ (Nat.zero_lt_succ _)
  case hx => rfl
  case hp => rfl
  case hi =>
    intro b hb
    match b with
    | ⟨0, _⟩ => rfl
    | ⟨1, _⟩ => exact absurd rfl hb
    | ⟨2, _⟩ => rfl
    | ⟨3, _⟩ => rfl
  case ha => rfl
  exact group_apply 8192 _ G n q k _ rfl

/-- The interleaved rows at tile `n`, group 2, row `q`. -/
theorem interleave_apply2 (G : S24576x128.Idx → EReal) (n : Fin 4) (q : Fin 2048) (k : Fin 128) :
    interleave G (ix2 (⟨n.val * 6144 + 4096 + q.val, by omega⟩ : Fin 24576) k)
      = G (ix2 (⟨16384 + (n.val * 2048 + q.val), by omega⟩ : Fin 24576) k) := by
  unfold interleave
  refine (shapeCast_apply _ _ _ (ix4 n (2 : Fin 3) q k) ?_).trans ?_
  · rw [Shape.rowMajor_val_two, Shape.rowMajor_val_four]
    show ((n.val * 3 + 2) * 2048 + q.val) * 128 + k.val = (n.val * 6144 + 4096 + q.val) * 128 + k.val
    omega
  refine (concatenate_apply_piece (t := S4x3x2048x128) (1 : Fin 4) _ _ _ 2 ?hk S4x1x2048x128 (group 16384 slices_S24576x128_S8192x128_16384_0 G) ?hx rfl 2 ?hp
    (ix4 n (0 : Fin 1) q k) ?hi ?ha).trans ?_
  case hk => exact Nat.succ_lt_succ (Nat.succ_lt_succ (Nat.zero_lt_succ _))
  case hx => rfl
  case hp => rfl
  case hi =>
    intro b hb
    match b with
    | ⟨0, _⟩ => rfl
    | ⟨1, _⟩ => exact absurd rfl hb
    | ⟨2, _⟩ => rfl
    | ⟨3, _⟩ => rfl
  case ha => rfl
  exact group_apply 16384 _ G n q k _ rfl

/-! ## The ids and the table read at an index -/

/-- The transposed table at (node, feature) is the table at (feature, node). -/
theorem Wt_apply (W : S128x9281.Idx → EReal) (j : Fin 9281) (k : Fin 128) : Wt W (ix2 j k) = W (ix2 k j) :=
  transpose_ix2_apply W _ j k

/-- The first third of the ids is the first path column. -/
theorem ids_apply0 (P : S8192x2.Idx → BitVec 32) (Lf : S8192.Idx → BitVec 32) (s : Fin 8192) :
    ids P Lf (ix1 (⟨s.val, by omega⟩ : Fin 24576)) = P (ix2 s (0 : Fin 2)) := by
  unfold ids
  refine (concatenate_apply_piece (t := S24576) (0 : Fin 1) _ _ _ 0 ?hk S8192
    (shapeCast S8192 (extractStridedSlice S8192x1 ![0, 0] P slices_S8192x2_S8192x1_0_0) shapeCasts_S8192x1_S8192) ?hx rfl 0 ?hp (ix1 s) ?hi ?ha).trans ?_
  case hk => exact Nat.zero_lt_succ _
  case hx => rfl
  case hp => rfl
  case hi =>
    intro b hb
    match b with
    | ⟨0, _⟩ => exact absurd rfl hb
  case ha => exact Nat.zero_add _
  refine (shapeCast_apply _ _ _ (ix2 s (0 : Fin 1)) ?_).trans ?_
  · rw [Shape.rowMajor_val_two, Shape.rowMajor_val_one]
    show s.val * 1 + 0 = s.val
    omega
  exact slice2_axis1_apply 0 P _ s (0 : Fin 1) (0 : Fin 2) rfl

/-- The second third of the ids is the second path column. -/
theorem ids_apply1 (P : S8192x2.Idx → BitVec 32) (Lf : S8192.Idx → BitVec 32) (s : Fin 8192) :
    ids P Lf (ix1 (⟨8192 + s.val, by omega⟩ : Fin 24576)) = P (ix2 s (1 : Fin 2)) := by
  unfold ids
  refine (concatenate_apply_piece (t := S24576) (0 : Fin 1) _ _ _ 1 ?hk S8192
    (shapeCast S8192 (extractStridedSlice S8192x1 ![0, 1] P slices_S8192x2_S8192x1_0_1) shapeCasts_S8192x1_S8192) ?hx rfl 8192 ?hp (ix1 s) ?hi ?ha).trans ?_
  case hk => exact Nat.succ_lt_succ (Nat.zero_lt_succ _)
  case hx => rfl
  case hp => rfl
  case hi =>
    intro b hb
    match b with
    | ⟨0, _⟩ => exact absurd rfl hb
  case ha => rfl
  refine (shapeCast_apply _ _ _ (ix2 s (0 : Fin 1)) ?_).trans ?_
  · rw [Shape.rowMajor_val_two, Shape.rowMajor_val_one]
    show s.val * 1 + 0 = s.val
    omega
  exact slice2_axis1_apply 1 P _ s (0 : Fin 1) (1 : Fin 2) rfl

/-- The last third of the ids is the leaf ids. -/
theorem ids_apply2 (P : S8192x2.Idx → BitVec 32) (Lf : S8192.Idx → BitVec 32) (s : Fin 8192) :
    ids P Lf (ix1 (⟨16384 + s.val, by omega⟩ : Fin 24576)) = Lf (ix1 s) := by
  unfold ids
  refine concatenate_apply_piece (t := S24576) (0 : Fin 1) _ _ _ 2 ?hk S8192 Lf ?hx rfl 16384 ?hp (ix1 s) ?hi ?ha
  case hk => exact Nat.succ_lt_succ (Nat.succ_lt_succ (Nat.zero_lt_succ _))
  case hx => rfl
  case hp => rfl
  case hi =>
    intro b hb
    match b with
    | ⟨0, _⟩ => exact absurd rfl hb
  case ha => rfl

/-! ## The gathered rows read at an index -/

/-- The wrapped ids read at an index: the specification's wrap of the id. -/
theorem wrapped_apply (x : S24576.Idx → BitVec 32) (r : Fin 24576) : wrapped x (ix1 r) = Cert.Spec.wrap (x (ix1 r)) := rfl

/-- The column of start indices read at row `r`: the wrapped id of row `r`. -/
theorem startIdx_apply (x : S24576.Idx → BitVec 32) (r : Fin 24576) :
    startIdx x (ix2 r (0 : Fin 1)) = Cert.Spec.wrap (x (ix1 r)) := by
  unfold startIdx
  refine (broadcastInDim_apply _ _ _ _ (ix1 r) (fun a => ?_)).trans (wrapped_apply x r)
  match a with
  | ⟨0, _⟩ => rfl

/-- The row gather read at `(r, k)`: the table's row at row `r`'s start index, read signed and clamped into the
    table, at feature `k`. -/
theorem gather_apply (T : S9281x128.Idx → EReal) (idx : S24576x1.Idx → BitVec 32) (r : Fin 24576) (k : Fin 128) :
    Host.gather gather_S9281x128_S24576x1_S24576x128_1_0_n_n_0_1_1128 T idx (ix2 r k)
      = T (ix2 (⟨min (idx (ix2 r (0 : Fin 1))).toInt.toNat 9280, by omega⟩ : Fin 9281) k) := by
  unfold Host.gather
  congr 1
  funext a
  refine Fin.ext ?_
  match a with
  | ⟨0, _⟩ =>
    show gather_S9281x128_S24576x1_S24576x128_1_0_n_n_0_1_1128.start (ix2 r k) idx 0
        + gather_S9281x128_S24576x1_S24576x128_1_0_n_n_0_1_1128.batchCoord (ix2 r k) 0
        + gather_S9281x128_S24576x1_S24576x128_1_0_n_n_0_1_1128.offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S9281x128_S24576x1_S24576x128_1_0_n_n_0_1_1128.startIndexMap from List.mem_singleton.mpr rfl)]
    have hsi : gather_S9281x128_S24576x1_S24576x128_1_0_n_n_0_1_1128.siIdx (ix2 r k)
        ⟨List.idxOf (0 : Fin 2) gather_S9281x128_S24576x1_S24576x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S9281x128_S24576x1_S24576x128_1_0_n_n_0_1_1128.start (ix2 r k) idx 1
        + gather_S9281x128_S24576x1_S24576x128_1_0_n_n_0_1_1128.batchCoord (ix2 r k) 1
        + gather_S9281x128_S24576x1_S24576x128_1_0_n_n_0_1_1128.offCoord (ix2 r k) 1 = k.val
    rw [GatherDims.batchCoord_eq_zero _ _ _ List.not_mem_nil]
    unfold GatherDims.start
    rw [dif_neg (show (1 : Fin 2) ∉ gather_S9281x128_S24576x1_S24576x128_1_0_n_n_0_1_1128.startIndexMap from by decide)]
    unfold GatherDims.offCoord
    rw [dif_pos (show (1 : Fin 2) ∈ gather_S9281x128_S24576x1_S24576x128_1_0_n_n_0_1_1128.sKept from by decide)]
    simp only [Nat.zero_add]
    rfl

/-- A fold over the one coordinate of a unit axis meets that coordinate's value once. -/
theorem fold_unit {β : Type} (op : β → β → β) [Std.Commutative op] [Std.Associative op] (b : β) (n : Nat) (hn : n = 1)
    (f : Fin n → β) : (Finset.univ : Finset (Fin n)).fold op b f = op (f ⟨0, by omega⟩) b := by
  subst hn
  rw [Finset.univ_unique, Finset.fold_singleton]
  rfl

/-- An id inside the table passes both range tests. -/
theorem inRange_apply (x : S24576.Idx → BitVec 32) (r : Fin 24576) (hx : (x (ix1 r)).toNat < 9281) :
    inRange x (ix2 r (0 : Fin 1)) = 1#1 := by
  show IntOp.andi (IntOp.cmpi .sge (startIdx x (ix2 r (0 : Fin 1))) 0#32) (IntOp.cmpi .sle (startIdx x (ix2 r (0 : Fin 1))) 9280#32) = 1#1
  rw [startIdx_apply, Cert.Spec.wrap_of_lt hx]
  have h31 : (x (ix1 r)).toNat < 2 ^ 31 := by omega
  have h0 : (0#32 : BitVec 32).toNat < 2 ^ 31 := by decide
  have h9 : (9280#32 : BitVec 32).toNat < 2 ^ 31 := by decide
  have e1 : IntOp.cmpi .sge (x (ix1 r)) 0#32 = 1#1 := (StableHlo.Predicate.sge_iff_toNat h31 h0).2 (Nat.zero_le _)
  have e2 : IntOp.cmpi .sle (x (ix1 r)) 9280#32 = 1#1 :=
    (StableHlo.Predicate.sle_iff_toNat h31 h9).2 (by show (x (ix1 r)).toNat ≤ 9280; omega)
  rw [e1, e2]
  rfl

/-- The reduction over the unit axis is the one bit it meets: an id inside the table is marked so. -/
theorem inTable_apply (x : S24576.Idx → BitVec 32) (r : Fin 24576) (hx : (x (ix1 r)).toNat < 9281) :
    inTable x (ix1 r) = 1#1 := by
  unfold inTable
  have hR : S24576x1.Reduces [1] S24576 := by decide
  refine (Host.reduce_eq_fold_single IntOp.andi _ _ reducesTo_S24576x1_S24576_d1 hR h_S_ (ix1 r)).trans ?_
  refine (fold_unit IntOp.andi _ _ rfl _).trans ?_
  have hl : hR.lift (ix1 r) (⟨0, by decide⟩ : Fin (S24576x1.size 1)) = ix2 r (0 : Fin 1) := by
    funext a
    refine Fin.ext ?_
    match a with
    | ⟨0, _⟩ => rfl
    | ⟨1, _⟩ => rfl
  show IntOp.andi (inRange x (hR.lift (ix1 r) (⟨0, by decide⟩ : Fin (S24576x1.size 1)))) 1#1 = 1#1
  rw [hl, inRange_apply x r hx]
  rfl

/-- The gathered rows read at `(r, k)` for an id inside the table: the table's row at the node the id names. -/
theorem taken_apply (T : S9281x128.Idx → EReal) (x : S24576.Idx → BitVec 32) (r : Fin 24576) (k : Fin 128)
    (hx : (x (ix1 r)).toNat < 9281) :
    taken T x (ix2 r k) = T (ix2 (Cert.Spec.node (x (ix1 r))) k) := by
  unfold taken
  rw [select_apply]
  have hm : broadcastInDim S24576x128 ![0] bcast_S24576_S24576x128_0 (inTable x) (ix2 r k) = 1#1 :=
    (broadcastInDim_apply _ _ _ _ (ix1 r) (fun a => match a with | ⟨0, _⟩ => rfl)).trans (inTable_apply x r hx)
  rw [hm, select_one, gather_apply]
  refine congrArg (fun j => T (ix2 j k)) (Fin.ext ?_)
  show min (startIdx x (ix2 r (0 : Fin 1))).toInt.toNat 9280 = _
  rw [startIdx_apply]
  rfl

variable (m : (ℓ : Loc nD τ sig) → Buf (Elt Ideal) ℓ) (c : Dev nD)

/-! ## What the two buffers hold -/

/-- The buffers at the launch: the three stretches run in turn. -/
theorem V_split (b : Ref sig .tc) :
    V m c b = StableHlo.after hostOps0_2 (StableHlo.after hostOps0_1 (StableHlo.after hostOps0 (fun b => m (c, b)))) b := by
  show StableHlo.after (List.flatten [hostOps0, hostOps0_1, hostOps0_2]) _ _ = _
  rw [show List.flatten [hostOps0 (F := Ideal), hostOps0_1, hostOps0_2] = hostOps0 ++ (hostOps0_1 ++ hostOps0_2) from by
    simp only [List.flatten_cons, List.flatten_nil, List.append_nil], after_append, after_append]

variable (X : Valuation τ sig (Elt Ideal))

/-- The first stretch leaves the ids laid end to end in its last buffer. -/
theorem run0_v5 :
    (StableHlo.after hostOps0 X (Proc.devRef .tc main_v5) : S24576.Idx → BitVec 32)
      = ids (X (Proc.devRef .tc main_arg2)) (X (Proc.devRef .tc main_arg3)) := by
  simp only [hostOps0]
  after_results3
  rfl

/-- The first stretch leaves the transposed table. -/
theorem run0_v4 :
    (StableHlo.after hostOps0 X (Proc.devRef .tc main_v4) : S9281x128.Idx → EReal) = Wt (X (Proc.devRef .tc main_arg1)) := by
  simp only [hostOps0]
  after_results3
  rfl

/-- The second stretch gathers the table's rows at the ids. Its operations belong to a function of the program whose
    buffers are typed references: the operands are read, and the result is written, through the references' transports
    (the identity at these literal references). -/
theorem run1_v6 :
    StableHlo.after hostOps0_1 X (Proc.devRef .tc main_v6)
      = (StableHlo.TRef.of main_v6 : StableHlo.TRef sig ⟨S24576x128, .f32⟩).toBuf (Val := Elt Ideal)
          (taken ((StableHlo.TRef.of main_v4 : StableHlo.TRef sig ⟨S9281x128, .f32⟩).ofBuf (X (Proc.devRef .tc main_v4)))
            ((StableHlo.TRef.of main_v5 : StableHlo.TRef sig ⟨S24576, .i32⟩).ofBuf (X (Proc.devRef .tc main_v5)))) := by
  simp only [hostOps0_1]
  after_results3
  rfl

/-- At the literal references of the gather's operands and result the transports are the identity. -/
theorem toBuf_v6 (v : S24576x128.Idx → EReal) :
    ((StableHlo.TRef.of main_v6 : StableHlo.TRef sig ⟨S24576x128, .f32⟩).toBuf (Val := Elt Ideal) v : S24576x128.Idx → EReal) = v := rfl
theorem ofBuf_v4 (v : (Proc.devRef (τ := τ) .tc main_v4).ty.Contents (Elt Ideal)) :
    ((StableHlo.TRef.of main_v4 : StableHlo.TRef sig ⟨S9281x128, .f32⟩).ofBuf v : S9281x128.Idx → EReal) = v := rfl
theorem ofBuf_v5 (v : (Proc.devRef (τ := τ) .tc main_v5).ty.Contents (Elt Ideal)) :
    ((StableHlo.TRef.of main_v5 : StableHlo.TRef sig ⟨S24576, .i32⟩).ofBuf v : S24576.Idx → BitVec 32) = v := rfl

/-- The second stretch does not touch the transposed table. -/
theorem run1_v4 : StableHlo.after hostOps0_1 X (Proc.devRef .tc main_v4) = X (Proc.devRef .tc main_v4) := by
  simp only [hostOps0_1]
  after_results3

/-- The third stretch interleaves the gathered rows. -/
theorem run2_v17 :
    (StableHlo.after hostOps0_2 X (Proc.devRef .tc main_v17) : S24576x128.Idx → EReal) = interleave (X (Proc.devRef .tc main_v6)) := by
  simp only [hostOps0_2]
  after_results3
  rfl

/-- The third stretch cuts the first row out of the transposed table. -/
theorem run2_v18 :
    (StableHlo.after hostOps0_2 X (Proc.devRef .tc main_v18) : S1x128.Idx → EReal)
      = extractStridedSlice S1x128 ![0, 0] (X (Proc.devRef .tc main_v4)) slices_S9281x128_S1x128_0_0 := by
  simp only [hostOps0_2]
  after_results3

/-- The interleaved gathered rows, as the launch finds them. -/
theorem V_main_v17 :
    (V m c main_v17 : S24576x128.Idx → EReal)
      = interleave (taken (Wt (m ((c : Thread nD τ).loc main_arg1))) (ids (m ((c : Thread nD τ).loc main_arg2)) (m ((c : Thread nD τ).loc main_arg3)))) := by
  rw [V_split]
  refine (run2_v17 _).trans ?_
  rw [run1_v6, toBuf_v6, ofBuf_v4, ofBuf_v5, run0_v4, run0_v5] <;> rfl

/-- The root's weight row, as the launch finds it. -/
theorem V_main_v18 :
    (V m c main_v18 : S1x128.Idx → EReal)
      = extractStridedSlice S1x128 ![0, 0] (Wt (m ((c : Thread nD τ).loc main_arg1))) slices_S9281x128_S1x128_0_0 := by
  rw [V_split]
  refine (run2_v18 _).trans ?_
  rw [run1_v4, run0_v4] <;> rfl

/-! ## The two arrays the launch reads

With every id inside the table the range test passes everywhere, the fill value is never selected, and the clamp of the
gather is the specification's: row `n * 6144 + g * 2048 + q` of the interleaved array is the weight column of the node
that leaf `n * 2048 + q` names in its group `g` (first path node, second path node, leaf node). -/

/-- Tile `n`, group 0: the weight columns of the leaves' first path nodes. -/
theorem w_rows0
    (hP : ∀ j : S8192x2.Idx, ((m ((c : Thread nD τ).loc main_arg2) : S8192x2.Idx → BitVec 32) j).toNat < 9281)
    (hL : ∀ j : S8192.Idx, ((m ((c : Thread nD τ).loc main_arg3) : S8192.Idx → BitVec 32) j).toNat < 9281)
    (n : Fin 4) (q : Fin 2048) (k : Fin 128) :
    (V m c main_v17 : S24576x128.Idx → EReal) (ix2 (⟨n.val * 6144 + q.val, by omega⟩ : Fin 24576) k)
      = (m ((c : Thread nD τ).loc main_arg1) : S128x9281.Idx → EReal)
          (ix2 k (Cert.Spec.node ((m ((c : Thread nD τ).loc main_arg2) : S8192x2.Idx → BitVec 32)
            (ix2 (⟨n.val * 2048 + q.val, by omega⟩ : Fin 8192) (0 : Fin 2))))) := by
  refine (congrFun (V_main_v17 m c) _).trans ?_
  refine (interleave_apply0 _ n q k).trans ?_
  have hid := ids_apply0 (m ((c : Thread nD τ).loc main_arg2)) (m ((c : Thread nD τ).loc main_arg3))
    (⟨n.val * 2048 + q.val, by omega⟩ : Fin 8192)
  refine (taken_apply _ _ _ k (by rw [hid]; exact hP _)).trans ?_
  rw [hid]
  exact Wt_apply _ _ _

/-- Tile `n`, group 1: the weight columns of the leaves' second path nodes. -/
theorem w_rows1
    (hP : ∀ j : S8192x2.Idx, ((m ((c : Thread nD τ).loc main_arg2) : S8192x2.Idx → BitVec 32) j).toNat < 9281)
    (hL : ∀ j : S8192.Idx, ((m ((c : Thread nD τ).loc main_arg3) : S8192.Idx → BitVec 32) j).toNat < 9281)
    (n : Fin 4) (q : Fin 2048) (k : Fin 128) :
    (V m c main_v17 : S24576x128.Idx → EReal) (ix2 (⟨n.val * 6144 + 2048 + q.val, by omega⟩ : Fin 24576) k)
      = (m ((c : Thread nD τ).loc main_arg1) : S128x9281.Idx → EReal)
          (ix2 k (Cert.Spec.node ((m ((c : Thread nD τ).loc main_arg2) : S8192x2.Idx → BitVec 32)
            (ix2 (⟨n.val * 2048 + q.val, by omega⟩ : Fin 8192) (1 : Fin 2))))) := by
  refine (congrFun (V_main_v17 m c) _).trans ?_
  refine (interleave_apply1 _ n q k).trans ?_
  have hid := ids_apply1 (m ((c : Thread nD τ).loc main_arg2)) (m ((c : Thread nD τ).loc main_arg3))
    (⟨n.val * 2048 + q.val, by omega⟩ : Fin 8192)
  refine (taken_apply _ _ _ k (by rw [hid]; exact hP _)).trans ?_
  rw [hid]
  exact Wt_apply _ _ _

/-- Tile `n`, group 2: the weight columns of the leaves' own nodes. -/
theorem w_rows2
    (hP : ∀ j : S8192x2.Idx, ((m ((c : Thread nD τ).loc main_arg2) : S8192x2.Idx → BitVec 32) j).toNat < 9281)
    (hL : ∀ j : S8192.Idx, ((m ((c : Thread nD τ).loc main_arg3) : S8192.Idx → BitVec 32) j).toNat < 9281)
    (n : Fin 4) (q : Fin 2048) (k : Fin 128) :
    (V m c main_v17 : S24576x128.Idx → EReal) (ix2 (⟨n.val * 6144 + 4096 + q.val, by omega⟩ : Fin 24576) k)
      = (m ((c : Thread nD τ).loc main_arg1) : S128x9281.Idx → EReal)
          (ix2 k (Cert.Spec.node ((m ((c : Thread nD τ).loc main_arg3) : S8192.Idx → BitVec 32)
            (ix1 (⟨n.val * 2048 + q.val, by omega⟩ : Fin 8192))))) := by
  refine (congrFun (V_main_v17 m c) _).trans ?_
  refine (interleave_apply2 _ n q k).trans ?_
  have hid := ids_apply2 (m ((c : Thread nD τ).loc main_arg2)) (m ((c : Thread nD τ).loc main_arg3))
    (⟨n.val * 2048 + q.val, by omega⟩ : Fin 8192)
  refine (taken_apply _ _ _ k (by rw [hid]; exact hL _)).trans ?_
  rw [hid]
  exact Wt_apply _ _ _

/-- The root's row: the weight column of node 0. -/
theorem root_row (k : Fin 128) :
    (V m c main_v18 : S1x128.Idx → EReal) (ix2 (0 : Fin 1) k)
      = (m ((c : Thread nD τ).loc main_arg1) : S128x9281.Idx → EReal) (ix2 k (0 : Fin 9281)) := by
  refine (congrFun (V_main_v18 m c) _).trans ?_
  refine (slice2_axis0_apply 0 _ _ (0 : Fin 1) k (0 : Fin 9281) rfl).trans ?_
  exact Wt_apply _ _ _

end Cert.KernelIdeal.HostValue

end
-- ==== Proof.RefValue.lean ====
/-
  The reference program's result, read entry by entry over the extended reals, is the specification.

  The generated reading of the reference gives every stage at an index except three: the two gathers (which
  element they read depends on the start indices' values) and the maximum over the last axis of extent 2. Those
  three are read here by hand: a gather with a whole-axis offset on axis 0 and a collapsed, clamped start index on
  axis 1 reads the operand at (row, clamped index); a fold of a maximum over two entries from minus infinity is
  the larger of the two. The division by the broadcast constant 1.0 is the identity. With these, the result at
  (r, c) is  logit r 0 + max (logit r n₀) (logit r n₁) + logit r leaf,  the nodes read as the specification reads
  them (a negative id has 9281 added, then the id is clamped into [0, 9280]).
-/
import proofs.«419006_j49400713838609_3_alg».proof.Proof.Gen.ReferenceIdeal.Run
import proofs.«419006_j49400713838609_3_alg».proof.Proof.Gen.ReferenceIdeal.Read
import proofs.«419006_j49400713838609_3_alg».proof.Proof.Spec
import Idealize.ShloMosaic.Lib.ValueIdx
import Idealize.ShloMosaic.Lib.Pipeline.Value
import Idealize.ShloMosaic.PureOps.Ideal.Laws
import Idealize.ShloMosaic.PureOps.Reduce
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The two gathers read at an index

The operand has shape [8192, 9281]. Axis 0 is taken whole (slice size 8192: it is not named by the start index, so
its start is 0, and the result's first coordinate is the offset on it); axis 1 is collapsed (slice size 1) and is
the one axis the start index names. So the result at (r, c, s), resp. (r, c), is the operand at row r and at the
column the start index names, read signed and clamped into [0, 9281 - 1]. -/

/-- The gather into [8192, 8192, 2] at (r, c, s): row r, column q, the clamped signed start index at (c, s, 0). -/
theorem gather_pair_apply {α : Type} (x : S8192x9281.Idx → α) (idx : IVec S8192x2x1 32) (r c : Fin 8192) (s : Fin 2)
    (q : Fin 9281) (hq : q.val = min (idx (ix3 c s (0 : Fin 1))).toInt.toNat 9280) :
    Host.gather gather_S8192x9281_S8192x2x1_S8192x8192x2_0_1_n_n_1_2_81921 x idx (ix3 r c s) = x (ix2 r q) := by
  unfold Host.gather
  congr 1
  funext a
  refine Fin.ext ?_
  match a with
  | ⟨0, _⟩ =>
    show gather_S8192x9281_S8192x2x1_S8192x8192x2_0_1_n_n_1_2_81921.start (ix3 r c s) idx 0 + gather_S8192x9281_S8192x2x1_S8192x8192x2_0_1_n_n_1_2_81921.batchCoord (ix3 r c s) 0 + gather_S8192x9281_S8192x2x1_S8192x8192x2_0_1_n_n_1_2_81921.offCoord (ix3 r c s) 0 = r.val
    have hs : gather_S8192x9281_S8192x2x1_S8192x8192x2_0_1_n_n_1_2_81921.start (ix3 r c s) idx 0 = 0 := by
      unfold GatherDims.start
      rw [dif_neg (show ¬ (0 : Fin 2) ∈ gather_S8192x9281_S8192x2x1_S8192x8192x2_0_1_n_n_1_2_81921.startIndexMap by decide)]
    have ho : gather_S8192x9281_S8192x2x1_S8192x8192x2_0_1_n_n_1_2_81921.offCoord (ix3 r c s) 0 = r.val := by
      unfold GatherDims.offCoord
      rw [dif_pos (show (0 : Fin 2) ∈ gather_S8192x9281_S8192x2x1_S8192x8192x2_0_1_n_n_1_2_81921.sKept by decide)]
      rfl
    rw [hs, GatherDims.batchCoord_eq_zero _ _ _ List.not_mem_nil, ho, Nat.add_zero, Nat.zero_add]
  | ⟨1, _⟩ =>
    show gather_S8192x9281_S8192x2x1_S8192x8192x2_0_1_n_n_1_2_81921.start (ix3 r c s) idx 1 + gather_S8192x9281_S8192x2x1_S8192x8192x2_0_1_n_n_1_2_81921.batchCoord (ix3 r c s) 1 + gather_S8192x9281_S8192x2x1_S8192x8192x2_0_1_n_n_1_2_81921.offCoord (ix3 r c s) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x9281_S8192x2x1_S8192x8192x2_0_1_n_n_1_2_81921.startIndexMap from List.mem_singleton.mpr rfl)]
    have hsi : gather_S8192x9281_S8192x2x1_S8192x8192x2_0_1_n_n_1_2_81921.siIdx (ix3 r c s)
        ⟨List.idxOf (1 : Fin 2) gather_S8192x9281_S8192x2x1_S8192x8192x2_0_1_n_n_1_2_81921.startIndexMap,
          List.idxOf_lt_length_iff.2 (List.mem_singleton.mpr rfl)⟩ = ix3 c s (0 : Fin 1) := by
      funext b; refine Fin.ext ?_
      match b with
      | ⟨0, _⟩ => rfl
      | ⟨1, _⟩ => rfl
      | ⟨2, _⟩ => rfl
    rw [hsi]
    exact hq.symm

/-- The gather into [8192, 8192] at (r, c): row r, column q, the clamped signed start index at (c, 0). -/
theorem gather_leaf_apply {α : Type} (x : S8192x9281.Idx → α) (idx : IVec S8192x1 32) (r c : Fin 8192)
    (q : Fin 9281) (hq : q.val = min (idx (ix2 c (0 : Fin 1))).toInt.toNat 9280) :
    Host.gather gather_S8192x9281_S8192x1_S8192x8192_0_1_n_n_1_1_81921 x idx (ix2 r c) = x (ix2 r q) := by
  unfold Host.gather
  congr 1
  funext a
  refine Fin.ext ?_
  match a with
  | ⟨0, _⟩ =>
    show gather_S8192x9281_S8192x1_S8192x8192_0_1_n_n_1_1_81921.start (ix2 r c) idx 0 + gather_S8192x9281_S8192x1_S8192x8192_0_1_n_n_1_1_81921.batchCoord (ix2 r c) 0 + gather_S8192x9281_S8192x1_S8192x8192_0_1_n_n_1_1_81921.offCoord (ix2 r c) 0 = r.val
    have hs : gather_S8192x9281_S8192x1_S8192x8192_0_1_n_n_1_1_81921.start (ix2 r c) idx 0 = 0 := by
      unfold GatherDims.start
      rw [dif_neg (show ¬ (0 : Fin 2) ∈ gather_S8192x9281_S8192x1_S8192x8192_0_1_n_n_1_1_81921.startIndexMap by decide)]
    have ho : gather_S8192x9281_S8192x1_S8192x8192_0_1_n_n_1_1_81921.offCoord (ix2 r c) 0 = r.val := by
      unfold GatherDims.offCoord
      rw [dif_pos (show (0 : Fin 2) ∈ gather_S8192x9281_S8192x1_S8192x8192_0_1_n_n_1_1_81921.sKept by decide)]
      rfl
    rw [hs, GatherDims.batchCoord_eq_zero _ _ _ List.not_mem_nil, ho, Nat.add_zero, Nat.zero_add]
  | ⟨1, _⟩ =>
    show gather_S8192x9281_S8192x1_S8192x8192_0_1_n_n_1_1_81921.start (ix2 r c) idx 1 + gather_S8192x9281_S8192x1_S8192x8192_0_1_n_n_1_1_81921.batchCoord (ix2 r c) 1 + gather_S8192x9281_S8192x1_S8192x8192_0_1_n_n_1_1_81921.offCoord (ix2 r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x9281_S8192x1_S8192x8192_0_1_n_n_1_1_81921.startIndexMap from List.mem_singleton.mpr rfl)]
    have hsi : gather_S8192x9281_S8192x1_S8192x8192_0_1_n_n_1_1_81921.siIdx (ix2 r c)
        ⟨List.idxOf (1 : Fin 2) gather_S8192x9281_S8192x1_S8192x8192_0_1_n_n_1_1_81921.startIndexMap,
          List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    exact hq.symm

/-! ## The maximum over the last axis, of extent 2 -/

/-- The index (r, c) of the reduced array with k put back on the dropped last axis is (r, c, k). -/
theorem lift_ix3 (h : S8192x8192x2.Reduces [2] S8192x8192) (r c : Fin 8192) (k : Fin (S8192x8192x2.size 2)) :
    h.lift (ix2 r c) k = ix3 r c (⟨k.val, k.isLt⟩ : Fin 2) := by
  funext a; apply Fin.ext
  match a with
  | ⟨0, _⟩ => rfl
  | ⟨1, _⟩ => rfl
  | ⟨2, _⟩ => rfl

/-- A fold of a maximum over the two coordinates, from the least element, is the maximum of the two values. -/
theorem fold_max_fin2 (g : Fin 2 → EReal) : (Finset.univ : Finset (Fin 2)).fold max ⊥ g = max (g 0) (g 1) := by
  simp only [Fin.univ_succ, Finset.fold_cons, Finset.fold_map, Finset.univ_unique, Finset.fold_singleton]
  show max (g 0) (max (g 1) ⊥) = _
  rw [max_bot_right]

/-- The f32 word of minus infinity is the least extended real. -/
theorem ofBits_neg_inf : Ideal.ofBits .f32 0xFF800000#32 = (⊥ : EReal) := by
  simp [Ideal.ofBits, Ideal.ieee]

/-- From minus infinity the reduce with a maximum body over the last axis, at (r, c), is the larger of the two entries. -/
theorem reduce_max_apply (x : FVec Ideal S8192x8192x2 .f32) (r c : Fin 8192) :
    Host.reduce FloatOps.maximumf x (val_main_cst_1 (F := Ideal)) reducesTo_S8192x8192x2_S8192x8192_d2 h_S_ (ix2 r c)
      = max (x (ix3 r c (0 : Fin 2))) (x (ix3 r c (1 : Fin 2))) := by
  have h : S8192x8192x2.Reduces [2] S8192x8192 := by decide
  rw [Host.reduce_eq_fold_single FloatOps.maximumf x _ reducesTo_S8192x8192x2_S8192x8192_d2 h h_S_]
  have hf : (x ∘ h.lift (ix2 r c)) = fun k : Fin 2 => x (ix3 r c k) := funext fun k => congrArg x (lift_ix3 h r c k)
  have e := fold_max_fin2 (fun k : Fin 2 => x (ix3 r c k))
  refine Eq.trans ?_ e
  rw [← ofBits_neg_inf]
  exact congrArg (fun f => Finset.fold max (Ideal.ofBits .f32 0xFF800000#32) f (Finset.univ : Finset (Fin 2))) hf

/-! ## The division by the constant one -/

/-- A host quotient by the f32 word of 1.0 is the dividend. -/
theorem hostDivf_one (a : Ideal .f32) :
    FloatOps.hostDivf (F := Ideal) a (FloatOps.ofBits (F := Ideal) .f32 0x3F800000#32) = a := by
  rw [Ideal.hostDivf_def, Ideal.ofBits_def, Ideal.ofBits_one_f32]
  have h1 : (1 : EReal) = ((1 : ℝ) : EReal) := by norm_cast
  rw [h1, Ideal.div_coe one_ne_zero, div_one, ← h1, mul_one]

/-! ## The stages between the arguments and the gathers -/

/-- The quotient of the product by the broadcast one, at (r, j), is the logit of row r against node j. -/
theorem v2_apply (x0 : FVec Ideal S8192x128 .f32) (x1 : FVec Ideal S128x9281 .f32) (r : Fin 8192) (j : Fin 9281) :
    val_main_v2 (F := Ideal) x0 x1 (ix2 r j) = Cert.Spec.logit x0 x1 r j := by
  rw [val_main_v2_apply, val_main_v1_apply, val_main_cst_apply, hostDivf_one, val_main_v0_apply]
  unfold Cert.Spec.logit
  refine Finset.sum_congr rfl fun k _ => ?_
  have el : lidx_main_v0 (ix2 r j) k = ix2 r k :=
    funext fun a => Fin.ext (by match a with | ⟨0, _⟩ => rfl | ⟨1, _⟩ => rfl)
  have er : ridx_main_v0 (ix2 r j) k = ix2 k j :=
    funext fun a => Fin.ext (by match a with | ⟨0, _⟩ => rfl | ⟨1, _⟩ => rfl)
  rw [el, er]

/-- The path ids after the select: a negative id has the table's length added. -/
theorem v8_apply (x2 : IVec S8192x2 32) (i : S8192x2.Idx) : val_main_v8 (F := Ideal) x2 i = Cert.Spec.wrap (x2 i) := by
  rw [val_main_v8_apply, val_main_v5_apply, val_main_v7_apply, val_main_v4_apply, val_main_v6_apply,
    val_main_c_apply, val_main_c_0_apply]
  rfl

/-- The leaf ids after the select: a negative id has the table's length added. -/
theorem v16_apply (x3 : IVec S8192 32) (i : S8192.Idx) : val_main_v16 (F := Ideal) x3 i = Cert.Spec.wrap (x3 i) := by
  rw [val_main_v16_apply, val_main_v13_apply, val_main_v15_apply, val_main_v12_apply, val_main_v14_apply,
    val_main_c_2_apply, val_main_c_3_apply]
  rfl

/-- The gathered pair at (r, c, s) is the logit of row r against the s-th inner node of leaf c. -/
theorem v10_apply (x0 : FVec Ideal S8192x128 .f32) (x1 : FVec Ideal S128x9281 .f32) (x2 : IVec S8192x2 32)
    (r c : Fin 8192) (s : Fin 2) :
    val_main_v10 (F := Ideal) x0 x1 x2 (ix3 r c s) = Cert.Spec.logit x0 x1 r (Cert.Spec.node (x2 (ix2 c s))) := by
  unfold val_main_v10
  rw [gather_pair_apply _ _ r c s (Cert.Spec.node (x2 (ix2 c s))) ?_, v2_apply]
  rw [val_main_v9_apply, v8_apply]
  have ei : idx_main_v9 (ix3 c s (0 : Fin 1)) = ix2 c s :=
    funext fun a => Fin.ext (by match a with | ⟨0, _⟩ => rfl | ⟨1, _⟩ => rfl)
  rw [ei]
  rfl

/-- The gathered leaf value at (r, c) is the logit of row r against the leaf node of c. -/
theorem v18_apply (x0 : FVec Ideal S8192x128 .f32) (x1 : FVec Ideal S128x9281 .f32) (x3 : IVec S8192 32)
    (r c : Fin 8192) :
    val_main_v18 (F := Ideal) x0 x1 x3 (ix2 r c) = Cert.Spec.logit x0 x1 r (Cert.Spec.node (x3 (ix1 c))) := by
  unfold val_main_v18
  rw [gather_leaf_apply _ _ r c (Cert.Spec.node (x3 (ix1 c))) ?_, v2_apply]
  rw [val_main_v17_apply, v16_apply]
  have ei : idx_main_v17 (ix2 c (0 : Fin 1)) = ix1 c :=
    funext fun a => Fin.ext (by match a with | ⟨0, _⟩ => rfl)
  rw [ei]
  rfl

/-- The broadcast first column at (r, c) is the logit of row r against the root, node 0. -/
theorem v19_apply (x0 : FVec Ideal S8192x128 .f32) (x1 : FVec Ideal S128x9281 .f32) (r c : Fin 8192) :
    val_main_v19 (F := Ideal) x0 x1 (ix2 r c) = Cert.Spec.logit x0 x1 r 0 := by
  rw [val_main_v19_apply, val_main_v3_apply]
  have ei : idx_main_v3 (idx_main_v19 (ix2 r c)) = ix2 r (0 : Fin 9281) :=
    funext fun a => Fin.ext (by match a with | ⟨0, _⟩ => rfl | ⟨1, _⟩ => rfl)
  rw [ei, v2_apply]

/-! ## The reference's result is the specification -/

theorem ref_eq (x0 : FVec Ideal S8192x128 .f32) (x1 : FVec Ideal S128x9281 .f32) (x2 : IVec S8192x2 32) (x3 : IVec S8192 32) :
    Cert.ReferenceIdeal.Read.val_main_v21 (F := Ideal) x0 x1 x2 x3 = Cert.Spec.G x0 x1 x2 x3 := by
  funext i
  obtain ⟨r, c, rfl⟩ : ∃ (r c : Fin 8192), i = ix2 r c := ⟨i 0, i 1, eq_ix2 i⟩
  rw [Cert.Spec.G_apply, val_main_v21_apply, val_main_v20_apply, v19_apply, v18_apply]
  unfold val_main_v11
  rw [reduce_max_apply, v10_apply, v10_apply]
  rfl

end Cert.ReferenceIdeal.RefValue

end
-- ==== Proof.IdsInRange.lean ====
/-
  The printed precondition, read back: when the predicate evaluates to all ones, every entry of the two index
  inputs lies in [0, 9281). The predicate is a conjunction of four reductions by `and` over all axes; the last
  two reduce the elementwise tests (x ≥ 0) ∧ (x < 9281), signed, of the index inputs. A reduction by `and` that
  is 1 met only 1s, so each element passes both signed tests, and a 32-bit word w with 0 ≤ w.toInt < 9281 has its
  top bit clear, hence w.toNat < 9281.
-/
import proofs.«419006_j49400713838609_3_alg».proof.Pre_finite_inputs
import Idealize.ShloMosaic.Lib.ReduceAll
import Idealize.ShloMosaic.Lib.StableHlo.Predicate
import Idealize.ShloMosaic.Lib.ValueIdx

noncomputable section

namespace Cert.Pre_finite_inputs.Decode

open Idealize.ShloMosaic
open Cert.Pre_finite_inputs

/-- The scalar shape has exactly one index. -/
instance subsingleton_scalar_idx : Subsingleton S_.Idx := ⟨fun a b => funext fun d => d.elim0⟩

/-- A 32-bit word that tests nonnegative and below 9281, both signed, is below 9281 unsigned: a nonnegative
    signed reading has the top bit clear, so the signed and unsigned readings agree. -/
theorem toNat_lt_of_signed_range (w : BitVec 32) (h0 : IntOp.cmpi .sge w 0#32 = 1#1)
    (h1 : IntOp.cmpi .slt w 9281#32 = 1#1) : w.toNat < 9281 := by
  rw [IntOp.cmpi_sge] at h0
  rw [IntOp.cmpi_slt] at h1
  have z : (0#32 : BitVec 32).toInt = 0 := by decide
  have n : (9281#32 : BitVec 32).toInt = 9281 := by decide
  rw [z] at h0
  rw [n] at h1
  rw [BitVec.toInt_eq_toNat_cond] at h0 h1
  have hw := w.isLt
  split at h0 <;> omega

/-- The elementwise test (x ≥ 0) ∧ (x < 9281) against broadcast scalar constants, read at one index. -/
theorem elem_in_range [Facts] {s : Shape} (hb : S_.BroadcastsInDim s (![] : Fin 0 → Fin s.rank)) (x : IVec s 32) (j : s.Idx)
    (e : andi (cmpi .sge x (broadcastInDim s ![] hb (constantI S_ 32 0#32)))
          (cmpi .slt x (broadcastInDim s ![] hb (constantI S_ 32 9281#32))) j = 1#1) :
    (x j).toNat < 9281 := by
  have e' : IntOp.andi (IntOp.cmpi .sge (x j) (broadcastInDim s ![] hb (constantI S_ 32 0#32) j))
      (IntOp.cmpi .slt (x j) (broadcastInDim s ![] hb (constantI S_ 32 9281#32) j)) = 1#1 := e
  rw [StableHlo.Predicate.bcast_scalar hb Facts.h_S_, StableHlo.Predicate.bcast_scalar hb Facts.h_S_] at e'
  obtain ⟨a, b⟩ := IntOp.andi_eq_one.1 e'
  exact toNat_lt_of_signed_range (x j) a b

/-- All ones from the predicate: every entry of both index inputs lies in [0, 9281). -/
theorem ids_in_range {F : FTy → Type} [FloatOps F] [Cert.Pre_finite_inputs.Facts]
    (x0 : FVec F S8192x128 .f32) (x1 : FVec F S128x9281 .f32) (x2 : IVec S8192x2 32) (x3 : IVec S8192 32)
    (h : Cert.Pre_finite_inputs.fn (F := F) x0 x1 x2 x3 = fun _ => 1#1) :
    (∀ j : S8192x2.Idx, (x2 j).toNat < 9281) ∧ (∀ j : S8192.Idx, (x3 j).toNat < 9281) := by
  have h0 := congrFun h ValueIdx.ix0
  dsimp only [Cert.Pre_finite_inputs.fn, Cert.Pre_finite_inputs.fn_part1] at h0
  -- the outer conjunction: (first three reductions) ∧ (reduction over x3)
  obtain ⟨h012, h3⟩ := IntOp.andi_eq_one.1 h0
  -- (the two finiteness reductions) ∧ (reduction over x2)
  obtain ⟨_, h2⟩ := IntOp.andi_eq_one.1 h012
  refine ⟨fun j => ?_, fun j => ?_⟩
  · exact elem_in_range Facts.bcast_S_S8192x2 x2 j (Host.reduce_andi_all _ _ _ _ _ h2 j)
  · exact elem_in_range Facts.bcast_S_S8192 x3 j (Host.reduce_andi_all _ _ _ _ _ h3 j)

end Cert.Pre_finite_inputs.Decode

end
-- ==== Proof.lean ====
/-
  The kernel scores 8192 feature rows against a table of 9281 node weights: for every row and every leaf it adds the
  root's logit, the larger of the logits of the leaf's two path nodes, and the leaf's own logit, a logit being the inner
  product of the feature row with the node's weight column. The reference forms all 9281 logits of every row with one
  matrix product and gathers columns; the kernel gathers the weight columns first, lays them out tile by tile, and
  multiplies tile by tile on a 4 × 8 grid. Over the extended reals both are the same sums of the same products, entry by
  entry (`Cert.Spec.G`), as long as every node id lies in the table: outside it the kernel's gather fills with a
  not-a-number where the reference's clamps, which is why the statement assumes the ids in `[0, 9281)`. No finiteness
  is used: no product is distributed or cancelled, and the trailing factor one and the divisor one are identities on every
  extended real.

  The three frames: the two kernel programs by the launch theorem of the pipeline library over a body that reads three
  blocks and overwrites one tile (`Hand.frame`); the reference by its run. `preserves` is empty.
-/
import proofs.«419006_j49400713838609_3_alg».proof.Defs
import proofs.«419006_j49400713838609_3_alg».proof.Proof.Gen.Kernel
import proofs.«419006_j49400713838609_3_alg».proof.Proof.Gen.KernelIdeal
import proofs.«419006_j49400713838609_3_alg».proof.Proof.Gen.ReferenceIdeal
import proofs.«419006_j49400713838609_3_alg».proof.Proof.Gen.Pre_finite_inputs
import proofs.«419006_j49400713838609_3_alg».proof.Proof.Gen.ReferenceIdeal.Run
import proofs.«419006_j49400713838609_3_alg».proof.Proof.Gen.ReferenceIdeal.Read
import proofs.«419006_j49400713838609_3_alg».proof.Proof.BitsFrame
import proofs.«419006_j49400713838609_3_alg».proof.Proof.IdealFrame
import proofs.«419006_j49400713838609_3_alg».proof.Proof.KernelValue
import proofs.«419006_j49400713838609_3_alg».proof.Proof.HostValue
import proofs.«419006_j49400713838609_3_alg».proof.Proof.RefValue
import proofs.«419006_j49400713838609_3_alg».proof.Proof.IdsInRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every node id lies in the table, so the host operations hand the launch the weight columns of
    the nodes the leaves name. -/
theorem rows_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KValue.RowsRead m c := by
  obtain ⟨hP, hL⟩ := Cert.Pre_finite_inputs.Decode.ids_in_range _ _ _ _ (hpre c)
  exact ⟨Cert.KernelIdeal.HostValue.w_rows0 m c hP hL, Cert.KernelIdeal.HostValue.w_rows1 m c hP hL,
    Cert.KernelIdeal.HostValue.w_rows2 m c hP hL, Cert.KernelIdeal.HostValue.root_row m c⟩

/-- Both programs end with the specification at the arguments in their result arrays. -/
theorem algebraic : Cert.algebraic_KernelIdeal_ReferenceIdeal := by
  intro m ρ m' ρ' hpre hagree
  refine ⟨fun c => Cert.KernelIdeal.KValue.result m c, Cert.KernelIdeal.KValue.run m ρ (rows_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
